-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8x2048x1024, .bf16⟩
  | .hbm, ⟨11, _⟩ => ⟨S8x2048x1024, .bf16⟩
  | .hbm, ⟨12, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1024x1024, .bf16⟩
  | .local _ .vmem, ⟨13, _⟩ => ⟨S1024, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x512x1024, .f32⟩
  | .local _ .vmem, ⟨19, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x2048x1024.size a
  hwx0_5 : ∀ i : grid0.Coords, EltTy.bits .bf16 = 32 ∨ (Rect.block (s := S8x2048x1024) S1x1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x1024.size a ≤ S8x2048x1024.size a
  hwx0_6 : ∀ i : grid0.Coords, EltTy.bits .bf16 = 32 ∨ (Rect.block (s := S8x2048x1024) S1x1024x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .f32 = 32 ∨ (Rect.block (s := S8x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S8x2048x1024.size a
  hwx1_4 : ∀ i : grid1.Coords, EltTy.bits .bf16 = 32 ∨ (Rect.block (s := S8x2048x1024) S1x2048x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x2048x1024.size a
  hwx1_5 : ∀ i : grid1.Coords, EltTy.bits .f32 = 32 ∨ (Rect.block (s := S8x2048x1024) S1x512x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x1024, .f32⟩
  | .hbm, ⟨35, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  Single-head self-attention with a residual, over a batch of 8 sequences of 2048 rows of width 1024, stated entry by
  entry on the extended reals.

  Three linear layers give the query, key and value rows: q = x·Wq + bq, k = x·Wk + bk, v = x·Wv + bv. For a query row
  (b, s) the scores against the key rows of the same batch are σ t = ∑ e, q (b, s, e) · k (b, t, e); the weights are
  w t = exp (σ t − max σ), their sum is the denominator, and the output row is the weighted mean of the value rows plus
  the input row. The two functions below differ only in WHERE the division by the denominator happens: after the sum
  over the value rows (`attnPost`), or inside it, weight by weight (`attnPre`). They agree where every quantity is a
  real number (Algebra.lean); here are only the definitions.
-/
import Mathlib.Data.EReal.Basic
import Mathlib.Data.EReal.Operations
import Mathlib.Algebra.BigOperators.Group.Finset.Basic
import Mathlib.Data.Finset.Fold
import Idealize.ShloMosaic.PureOps.Ideal
import Idealize.ShloMosaic.Lib.ValueIdx

noncomputable section

open scoped BigOperators

namespace Cert.Attn

open Idealize.ShloMosaic Idealize.ShloMosaic.ValueIdx

/-- The activations' shape: 8 sequences of 2048 rows of 1024 features. -/
abbrev SX : Shape := ⟨3, ![8, 2048, 1024]⟩
/-- A weight matrix, input feature by output feature. -/
abbrev SW : Shape := ⟨2, ![1024, 1024]⟩
/-- A bias vector. -/
abbrev SB : Shape := ⟨1, ![1024]⟩

/-- A linear layer applied to every row: entry (b, s, e) of x·W + β is the sum over the input feature d of
    x (b, s, d) · W (d, e), plus β e. -/
def lin (x : SX.Idx → EReal) (W : SW.Idx → EReal) (β : SB.Idx → EReal) : SX.Idx → EReal :=
  fun i => (∑ d : Fin 1024, x (ix3 (i 0) (i 1) d) * W (ix2 d (i 2))) + β (ix1 (i 2))

/-- The scores of query row (b, s) against every key row t of its batch: the inner product over the features. -/
def score (q k : SX.Idx → EReal) (b : Fin 8) (s : Fin 2048) : Fin 2048 → EReal :=
  fun t => ∑ e : Fin 1024, q (ix3 b s e) * k (ix3 b t e)

/-- The largest of a row of 2048 scores (−∞ would be the value of an empty row). -/
def rowMax (σ : Fin 2048 → EReal) : EReal := (Finset.univ : Finset (Fin 2048)).fold max ⊥ σ

/-- The unnormalised softmax weights of a row of scores: exp (σ t − max σ). -/
def wt (σ : Fin 2048 → EReal) : Fin 2048 → EReal := fun t => Ideal.exp (σ t - rowMax σ)

/-- The softmax denominator of a row of scores. -/
def den (σ : Fin 2048 → EReal) : EReal := ∑ t : Fin 2048, wt σ t

/-- Attention with the division AFTER the sum over the value rows: (∑ t, w t · v (b, t, e)) / den + x (b, s, e). -/
def attnPost (x q k v : SX.Idx → EReal) : SX.Idx → EReal := fun i =>
  Ideal.div (∑ t : Fin 2048, wt (score q k (i 0) (i 1)) t * v (ix3 (i 0) t (i 2))) (den (score q k (i 0) (i 1))) + x i

/-- Attention with each weight divided by the denominator BEFORE the sum: ∑ t, (w t / den) · v (b, t, e) + x (b, s, e). -/
def attnPre (x q k v : SX.Idx → EReal) : SX.Idx → EReal := fun i =>
  (∑ t : Fin 2048, Ideal.div (wt (score q k (i 0) (i 1)) t) (den (score q k (i 0) (i 1))) * v (ix3 (i 0) t (i 2))) + x i

/-- The whole layer with the late division, from the input and the three layers' parameters. -/
def outPost (x : SX.Idx → EReal) (Wq : SW.Idx → EReal) (bq : SB.Idx → EReal) (Wk : SW.Idx → EReal) (bk : SB.Idx → EReal)
    (Wv : SW.Idx → EReal) (bv : SB.Idx → EReal) : SX.Idx → EReal :=
  attnPost x (lin x Wq bq) (lin x Wk bk) (lin x Wv bv)

/-- The whole layer with the early division. -/
def outPre (x : SX.Idx → EReal) (Wq : SW.Idx → EReal) (bq : SB.Idx → EReal) (Wk : SW.Idx → EReal) (bk : SB.Idx → EReal)
    (Wv : SW.Idx → EReal) (bv : SB.Idx → EReal) : SX.Idx → EReal :=
  attnPre x (lin x Wq bq) (lin x Wk bk) (lin x Wv bv)

end Cert.Attn

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.Region0.lean ====
/-
  The first kernel call: the key and value rows. Each grid point (b, h) takes rows 1024·h … 1024·h + 1023 of sequence b,
  multiplies them by a weight matrix and adds a bias row; the two output arrays, all their blocks written, hold one
  linear layer each, entry by entry, of the arrays the call finds on entry.

  The steps. One block's arithmetic read at an entry (u, r, e): the sum over the input feature d of the activation block
  at (0, r, d) times the weight at (d, e), plus the bias at e; the two roundings to the narrow format are the identity on
  the extended reals. Each block an input window hands the body is a rectangle of its array: the activation block at point
  (b, h) holds rows 1024·h + r of sequence b, the weight and bias blocks are their whole arrays. So what point (b, h)
  writes back is the block (b, h) of ONE function of the entry arrays, the linear layer. Every entry (b, s, e) of an output
  array lies in the block of the point (b, s / 1024), so after the last point the array is that function.
-/
import proofs.«412914_j7980049236170_3_alg».proof.Defs
import proofs.«412914_j7980049236170_3_alg».proof.Proof.Gen.KernelIdeal.Frame
import proofs.«412914_j7980049236170_3_alg».proof.Proof.Spec
import proofs.«412914_j7980049236170_3_alg».proof.Proof.LibDotPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## One block's arithmetic, entry by entry -/

/-- The offsets of an access to a whole block are all zero, at each rank the body uses. -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The linear layer of one block: entry (u, r, e) of what the body stores is the sum over the input feature d of the
    activation block at (0, r, d) times the weight at (d, e), plus the bias at e. The unit axis is dropped before the
    product and put back after the sum; both roundings to the narrow format are the identity on the extended reals. -/
theorem linBlock_apply (x0 : FVec Ideal S1x1024x1024 .f32) (x1 : FVec Ideal S1024x1024 .bf16) (x2 : FVec Ideal S1024 .f32)
    (u : Fin 1) (r e : Fin 1024) :
    k0_pay2 (F := Ideal) x0 x1 x2 (ix3 u r e)
      = (∑ d : Fin 1024, x0 (ix3 (0 : Fin 1) r d) * x1 (ix2 d e)) + x2 (ix1 e) := by
  unfold k0_pay2 k0_pay1
  refine (shapeCast_ab_1ab_apply _ _ u r e).trans ?_
  refine (truncf_apply (φ := FTy.f32) (ψ := FTy.bf16) _ _ (ix2 r e)).trans ?_
  refine (addf_apply _ _ (ix2 r e)).trans ?_
  refine congrArg₂ (· + ·) ?_ ?_
  · refine (Cert.LibDotPlain.matmul_zero_apply _ none _ _ r e).trans ?_
    refine Finset.sum_congr rfl fun d _ => congrArg₂ (· * ·) ?_ ?_
    · refine (truncf_apply (φ := FTy.f32) (ψ := FTy.bf16) _ _ (ix2 r d)).trans ?_
      exact shapeCast_1ab_ab_apply x0 _ r d
    · exact congrFun (shapeCast_self x1 _) (ix2 d e)
  · refine (broadcastTo_1b_ab_apply _ _ r e).trans ?_
    exact shapeCast_a_1a_apply x2 _ (0 : Fin 1) e

/-- The second store's arithmetic is the first's, of its own weight and bias blocks. -/
theorem linBlock_apply' (x0 : FVec Ideal S1x1024x1024 .f32) (x3 : FVec Ideal S1024x1024 .bf16) (x4 : FVec Ideal S1024 .f32)
    (u : Fin 1) (r e : Fin 1024) :
    k0_pay3 (F := Ideal) x0 x3 x4 (ix3 u r e)
      = (∑ d : Fin 1024, x0 (ix3 (0 : Fin 1) r d) * x3 (ix2 d e)) + x4 (ix1 e) :=
  linBlock_apply x0 x3 x4 u r e

/-- The linear layer at an entry, written out. -/
theorem lin_apply (x : Cert.Attn.SX.Idx → EReal) (W : Cert.Attn.SW.Idx → EReal) (β : Cert.Attn.SB.Idx → EReal)
    (i : Cert.Attn.SX.Idx) :
    Cert.Attn.lin x W β i = (∑ d : Fin 1024, x (ix3 (i 0) (i 1) d) * W (ix2 d (i 2))) + β (ix1 (i 2)) := rfl

/-! ## The blocks the input windows hand the body, as rectangles of their arrays -/

/-- The activation block at a grid point, at a position y, is the activation array at the entry whose coordinate on each
    axis is the block's index times the block's extent plus y's coordinate. -/
theorem actBlock_apply (c : Dev nD) (t : Fin cfg0.N) (y : S1x1024x1024.Idx) (i : S8x2048x1024.Idx)
    (h0 : win0_0.index t (0 : Fin 3) * 1 + 1 * (y 0).val = (i 0).val)
    (h1 : win0_0.index t (1 : Fin 3) * 1024 + 1 * (y 1).val = (i 1).val)
    (h2 : win0_0.index t (2 : Fin 3) * 1024 + 1 * (y 2).val = (i 2).val) :
    (iblk0 (F := Ideal) V c 0 t : S1x1024x1024.Idx → EReal) y = (V c main_arg0 : S8x2048x1024.Idx → EReal) i := by
  show (V c main_arg0 : S8x2048x1024.Idx → EReal) (((cfg0.win 0).blk t).view.emb y) = _
  refine congrArg _ (funext fun a => Fin.ext ?_)
  match a with
  | ⟨0, _⟩ => exact h0
  | ⟨1, _⟩ => exact h1
  | ⟨2, _⟩ => exact h2

/-- The key weights' block, likewise of the key weight matrix. -/
theorem keyWeights_apply (c : Dev nD) (t : Fin cfg0.N) (y : S1024x1024.Idx) (i : S1024x1024.Idx)
    (h0 : win0_1.index t (0 : Fin 2) * 1024 + 1 * (y 0).val = (i 0).val)
    (h1 : win0_1.index t (1 : Fin 2) * 1024 + 1 * (y 1).val = (i 1).val) :
    (iblk0 (F := Ideal) V c 1 t : S1024x1024.Idx → EReal) y = (V c main_v1 : S1024x1024.Idx → EReal) i := by
  show (V c main_v1 : S1024x1024.Idx → EReal) (((cfg0.win 1).blk t).view.emb y) = _
  refine congrArg _ (funext fun a => Fin.ext ?_)
  match a with
  | ⟨0, _⟩ => exact h0
  | ⟨1, _⟩ => exact h1

/-- The key bias' block, of the key bias vector. -/
theorem keyBias_apply (c : Dev nD) (t : Fin cfg0.N) (y : S1024.Idx) (i : S1024.Idx)
    (h0 : win0_2.index t (0 : Fin 1) * 1024 + 1 * (y 0).val = (i 0).val) :
    (iblk0 (F := Ideal) V c 2 t : S1024.Idx → EReal) y = (V c main_arg4 : S1024.Idx → EReal) i := by
  show (V c main_arg4 : S1024.Idx → EReal) (((cfg0.win 2).blk t).view.emb y) = _
  refine congrArg _ (funext fun a => Fin.ext ?_)
  match a with
  | ⟨0, _⟩ => exact h0

/-- The value weights' block, of the value weight matrix. -/
theorem valueWeights_apply (c : Dev nD) (t : Fin cfg0.N) (y : S1024x1024.Idx) (i : S1024x1024.Idx)
    (h0 : win0_3.index t (0 : Fin 2) * 1024 + 1 * (y 0).val = (i 0).val)
    (h1 : win0_3.index t (1 : Fin 2) * 1024 + 1 * (y 1).val = (i 1).val) :
    (iblk0 (F := Ideal) V c 3 t : S1024x1024.Idx → EReal) y = (V c main_v2 : S1024x1024.Idx → EReal) i := by
  show (V c main_v2 : S1024x1024.Idx → EReal) (((cfg0.win 3).blk t).view.emb y) = _
  refine congrArg _ (funext fun a => Fin.ext ?_)
  match a with
  | ⟨0, _⟩ => exact h0
  | ⟨1, _⟩ => exact h1

/-- The value bias' block, of the value bias vector. -/
theorem valueBias_apply (c : Dev nD) (t : Fin cfg0.N) (y : S1024.Idx) (i : S1024.Idx)
    (h0 : win0_4.index t (0 : Fin 1) * 1024 + 1 * (y 0).val = (i 0).val) :
    (iblk0 (F := Ideal) V c 4 t : S1024.Idx → EReal) y = (V c main_arg6 : S1024.Idx → EReal) i := by
  show (V c main_arg6 : S1024.Idx → EReal) (((cfg0.win 4).blk t).view.emb y) = _
  refine congrArg _ (funext fun a => Fin.ext ?_)
  match a with
  | ⟨0, _⟩ => exact h0

/-! ## The block indices over the grid -/

/-- At every grid point the activation block and the two output blocks have the same index on the batch and row axes and
    index 0 on the feature axis; the weight and bias blocks have index 0 throughout. -/
theorem block_index : ∀ t : Fin cfg0.N,
    win0_0.index t (0 : Fin 3) = win0_5.index t (0 : Fin 3)
    ∧ win0_0.index t (1 : Fin 3) = win0_5.index t (1 : Fin 3)
    ∧ win0_0.index t (0 : Fin 3) = win0_6.index t (0 : Fin 3)
    ∧ win0_0.index t (1 : Fin 3) = win0_6.index t (1 : Fin 3)
    ∧ win0_0.index t (2 : Fin 3) = 0
    ∧ win0_5.index t (2 : Fin 3) = 0
    ∧ win0_6.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- Every pair (sequence, half of its rows) is the block index of some grid point, for either output. -/
theorem keys_onto : ∀ (b : Fin 8) (h : Fin 2), ∃ t : Fin cfg0.N, win0_5.index t = ![b.val, h.val, 0] :=
  (by decide +kernel : ∀ (b : Fin 8) (h : Fin 2), ∃ t : Fin grid0.N, win0_5.index t = ![b.val, h.val, 0])
theorem values_onto : ∀ (b : Fin 8) (h : Fin 2), ∃ t : Fin cfg0.N, win0_6.index t = ![b.val, h.val, 0] :=
  (by decide +kernel : ∀ (b : Fin 8) (h : Fin 2), ∃ t : Fin grid0.N, win0_6.index t = ![b.val, h.val, 0])

/-! ## The key rows -/

/-- What a grid point computes for the key output, at position (u, r, e) of its block, is the linear layer at the entry i
    of the array that the position is stored to: the block's index times the block's extent plus the position, axis by axis. -/
theorem keys_point (c : Dev nD) (t : Fin cfg0.N) (u : Fin 1) (r e : Fin 1024) (i : S8x2048x1024.Idx)
    (hi0 : win0_5.index t (0 : Fin 3) * 1 + 1 * u.val = (i 0).val)
    (hi1 : win0_5.index t (1 : Fin 3) * 1024 + 1 * r.val = (i 1).val)
    (hi2 : win0_5.index t (2 : Fin 3) * 1024 + 1 * e.val = (i 2).val) :
    k0_pay2 (F := Ideal) (iblk0 V c 0 t) (iblk0 V c 1 t) (iblk0 V c 2 t) (ix3 u r e)
      = Cert.Attn.lin (V c main_arg0) (V c main_v1) (V c main_arg4) i := by
  obtain ⟨k0, k1, v0, v1, a2, k2, v2, kw0, kw1, kb0, vw0, vw1, vb0⟩ := block_index t
  have hu : u.val < 1 := u.isLt
  refine (linBlock_apply (iblk0 V c 0 t) (iblk0 V c 1 t) (iblk0 V c 2 t) u r e).trans ?_
  refine Eq.trans ?_ (lin_apply (V c main_arg0) (V c main_v1) (V c main_arg4) i).symm
  refine congrArg₂ (· + ·) (Finset.sum_congr rfl fun d _ => congrArg₂ (· * ·) ?_ ?_) ?_
  · refine actBlock_apply V c t (ix3 (0 : Fin 1) r d) (ix3 (i 0) (i 1) d) ?_ ?_ ?_
    · show win0_0.index t (0 : Fin 3) * 1 + 1 * 0 = (i 0).val; omega
    · show win0_0.index t (1 : Fin 3) * 1024 + 1 * r.val = (i 1).val; omega
    · show win0_0.index t (2 : Fin 3) * 1024 + 1 * d.val = d.val; omega
  · refine keyWeights_apply V c t (ix2 d e) (ix2 d (i 2)) ?_ ?_
    · show win0_1.index t (0 : Fin 2) * 1024 + 1 * d.val = d.val; omega
    · show win0_1.index t (1 : Fin 2) * 1024 + 1 * e.val = (i 2).val; omega
  · refine keyBias_apply V c t (ix1 e) (ix1 (i 2)) ?_
    show win0_2.index t (0 : Fin 1) * 1024 + 1 * e.val = (i 2).val; omega

/-- So what a grid point writes back to the key array is its block of the linear layer of the entry arrays. -/
theorem keys_flushed (c : Dev nD) (t : Fin cfg0.N) :
    (dat0 (F := Ideal) V c).flushed 5 t
      = ((cfg0.win 5).blk t).view.read (Elt Ideal) (Cert.Attn.lin (V c main_arg0) (V c main_v1) (V c main_arg4)) := by
  show (cfg0.win 5).cut (grid0.coords t) ((dat0 (F := Ideal) V c).after 5 t) = _
  rw [after0_5]
  unfold out0_5
  rw [View.canon_unit_zero zero3]
  simp only [View.ld_unit_zero (S := S1x1024x1024) zero3, View.ld_unit_zero (S := S1024x1024) zero2,
    View.ld_unit_zero (S := S1024) zero1]
  funext j
  obtain ⟨u, r, e, rfl⟩ : ∃ (u : Fin 1) (r e : Fin 1024), j = ix3 u r e := ⟨j 0, j 1, j 2, eq_ix3 j⟩
  exact keys_point V c t u r e (((cfg0.win 5).blk t).view.emb (ix3 u r e)) rfl rfl rfl

/-- An entry of the key array is in a grid point's block iff each coordinate is in the block's range on its axis. -/
theorem keys_mem (t : Fin cfg0.N) (i : S8x2048x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v3_0).slice (win0_5.rect t)).set ↔ _
  rw [View.set_slice_whole, Rect.mem_set_unit]
  exact Iff.rfl

/-- Entry (b, s, e) of the key array is in the block of the grid point whose block index is (b, s / 1024, 0). -/
theorem keys_cover (i : S8x2048x1024.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 1024 := (i 2).isLt
  obtain ⟨t, ht⟩ := keys_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [keys_mem]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 1024 ≤ (i 2).val ∧ (i 2).val < win0_5.index t (2 : Fin 3) * 1024 + 1024
    omega

/-! ## The value rows -/

/-- What a grid point computes for the value output, at position (u, r, e) of its block, is the linear layer at the entry i
    of the array that the position is stored to: the block's index times the block's extent plus the position, axis by axis. -/
theorem values_point (c : Dev nD) (t : Fin cfg0.N) (u : Fin 1) (r e : Fin 1024) (i : S8x2048x1024.Idx)
    (hi0 : win0_6.index t (0 : Fin 3) * 1 + 1 * u.val = (i 0).val)
    (hi1 : win0_6.index t (1 : Fin 3) * 1024 + 1 * r.val = (i 1).val)
    (hi2 : win0_6.index t (2 : Fin 3) * 1024 + 1 * e.val = (i 2).val) :
    k0_pay3 (F := Ideal) (iblk0 V c 0 t) (iblk0 V c 3 t) (iblk0 V c 4 t) (ix3 u r e)
      = Cert.Attn.lin (V c main_arg0) (V c main_v2) (V c main_arg6) i := by
  obtain ⟨k0, k1, v0, v1, a2, k2, v2, kw0, kw1, kb0, vw0, vw1, vb0⟩ := block_index t
  have hu : u.val < 1 := u.isLt
  refine (linBlock_apply' (iblk0 V c 0 t) (iblk0 V c 3 t) (iblk0 V c 4 t) u r e).trans ?_
  refine Eq.trans ?_ (lin_apply (V c main_arg0) (V c main_v2) (V c main_arg6) i).symm
  refine congrArg₂ (· + ·) (Finset.sum_congr rfl fun d _ => congrArg₂ (· * ·) ?_ ?_) ?_
  · refine actBlock_apply V c t (ix3 (0 : Fin 1) r d) (ix3 (i 0) (i 1) d) ?_ ?_ ?_
    · show win0_0.index t (0 : Fin 3) * 1 + 1 * 0 = (i 0).val; omega
    · show win0_0.index t (1 : Fin 3) * 1024 + 1 * r.val = (i 1).val; omega
    · show win0_0.index t (2 : Fin 3) * 1024 + 1 * d.val = d.val; omega
  · refine valueWeights_apply V c t (ix2 d e) (ix2 d (i 2)) ?_ ?_
    · show win0_3.index t (0 : Fin 2) * 1024 + 1 * d.val = d.val; omega
    · show win0_3.index t (1 : Fin 2) * 1024 + 1 * e.val = (i 2).val; omega
  · refine valueBias_apply V c t (ix1 e) (ix1 (i 2)) ?_
    show win0_4.index t (0 : Fin 1) * 1024 + 1 * e.val = (i 2).val; omega

/-- So what a grid point writes back to the value array is its block of the linear layer of the entry arrays. -/
theorem values_flushed (c : Dev nD) (t : Fin cfg0.N) :
    (dat0 (F := Ideal) V c).flushed 6 t
      = ((cfg0.win 6).blk t).view.read (Elt Ideal) (Cert.Attn.lin (V c main_arg0) (V c main_v2) (V c main_arg6)) := by
  show (cfg0.win 6).cut (grid0.coords t) ((dat0 (F := Ideal) V c).after 6 t) = _
  rw [after0_6]
  unfold out0_6
  rw [View.canon_unit_zero zero3]
  simp only [View.ld_unit_zero (S := S1x1024x1024) zero3, View.ld_unit_zero (S := S1024x1024) zero2,
    View.ld_unit_zero (S := S1024) zero1]
  funext j
  obtain ⟨u, r, e, rfl⟩ : ∃ (u : Fin 1) (r e : Fin 1024), j = ix3 u r e := ⟨j 0, j 1, j 2, eq_ix3 j⟩
  exact values_point V c t u r e (((cfg0.win 6).blk t).view.emb (ix3 u r e)) rfl rfl rfl

/-- An entry of the value array is in a grid point's block iff each coordinate is in the block's range on its axis. -/
theorem values_mem (t : Fin cfg0.N) (i : S8x2048x1024.Idx) :
    i ∈ ((cfg0.win 6).blk t).view.set ↔ ∀ a : Fin 3, win0_6.index t a * S1x1024x1024.size a ≤ (i a).val
      ∧ (i a).val < win0_6.index t a * S1x1024x1024.size a + S1x1024x1024.size a := by
  show i ∈ ((View.whole main_v3_1).slice (win0_6.rect t)).set ↔ _
  rw [View.set_slice_whole, Rect.mem_set_unit]
  exact Iff.rfl

/-- Entry (b, s, e) of the value array is in the block of the grid point whose block index is (b, s / 1024, 0). -/
theorem values_cover (i : S8x2048x1024.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 1024 := (i 2).isLt
  obtain ⟨t, ht⟩ := values_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [values_mem]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 1024 ≤ (i 1).val ∧ (i 1).val < win0_6.index t (1 : Fin 3) * 1024 + 1024
    omega
  | ⟨2, _⟩ =>
    show win0_6.index t (2 : Fin 3) * 1024 ≤ (i 2).val ∧ (i 2).val < win0_6.index t (2 : Fin 3) * 1024 + 1024
    omega

/-! ## The two arrays after the call -/

/-- After the call the first output array holds the key rows: the linear layer of the input array with the second
    operand as weights and the third as bias. -/
theorem keys (c : Dev nD) :
    ((dat0 (F := Ideal) V c).arrAt 5 cfg0.N : S8x2048x1024.Idx → EReal)
      = Cert.Attn.lin (V c main_arg0) (V c main_v1) (V c main_arg4) :=
  (dat0 (F := Ideal) V c).arrAt_eq_of_cover 5 (Cert.Attn.lin (V c main_arg0) (V c main_v1) (V c main_arg4))
    (fun t _ => keys_flushed V c t) keys_cover

/-- After the call the second output array holds the value rows, likewise from the fourth and fifth operands. -/
theorem values (c : Dev nD) :
    ((dat0 (F := Ideal) V c).arrAt 6 cfg0.N : S8x2048x1024.Idx → EReal)
      = Cert.Attn.lin (V c main_arg0) (V c main_v2) (V c main_arg6) :=
  (dat0 (F := Ideal) V c).arrAt_eq_of_cover 6 (Cert.Attn.lin (V c main_arg0) (V c main_v2) (V c main_arg6))
    (fun t _ => values_flushed V c t) values_cover

end Cert.KernelIdeal.Region0

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.LibColumn.lean ====
/-
  A column kept by a row reduction (`keepdims=True`), read at an index: a vector of length a cast to an [a, 1] column
  reads, at (i, u), the vector at i; the column broadcast along the rows of an [a, b] array reads, at (p, c), its entry
  at row p. Companions of the library's leading-unit-axis casts and of its one-row broadcast.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region1.lean ====
/-
  The second kernel call: attention. Each grid point (b, j) takes query rows 512·j … 512·j + 511 of sequence b, projects
  them, scores them against ALL 2048 key rows of the batch, and writes the weighted mean of the value rows plus the input
  rows, dividing by the softmax denominator after the sum over the value rows.

  The body's arithmetic is read stage by stage at an index (the query rows of the tile, the scores, the row maximum, the
  weights, the denominator, the output row); each input block is its array read through the point's rectangle; the
  output's blocks tile the array, so the array ends holding `Cert.Attn.attnPost` entry by entry.
-/
import proofs.«412914_j7980049236170_3_alg».proof.Defs
import proofs.«412914_j7980049236170_3_alg».proof.Proof.Gen.KernelIdeal.Frame
import proofs.«412914_j7980049236170_3_alg».proof.Proof.Spec
import proofs.«412914_j7980049236170_3_alg».proof.Proof.LibDotLastAxis
import proofs.«412914_j7980049236170_3_alg».proof.Proof.LibDotPlain
import proofs.«412914_j7980049236170_3_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The pattern of −∞ denotes the bottom of the extended reals. -/
theorem negInf : Ideal.ofBits .f32 0xFF800000#32 = (⊥ : EReal) := by simp [Ideal.ofBits, Ideal.ieee]

/-- Putting coordinate t on the reduced axis of a row index r gives the matrix index (r, t). -/
theorem lift_ix1 (h : S512x2048.Reduces [1] S512) (r : Fin 512) (t : Fin 2048) : h.lift (ix1 r) t = ix2 r t := by
  funext a; apply Fin.ext
  match a with
  | ⟨0, _⟩ => rfl
  | ⟨1, _⟩ => rfl

/-! ## The body's arithmetic, stage by stage -/

section Stages

variable (x0 : FVec Ideal S1x512x1024 .f32) (x1 : FVec Ideal S1024x1024 .bf16) (x2 : FVec Ideal S1024 .f32)
  (x3 x4 : FVec Ideal S1x2048x1024 .bf16)

/-- The query rows of the tile: the input rows times the weights, plus the bias row. -/
def qT : FVec Ideal S512x1024 .f32 :=
  addf (matmul dot_S512x1024_S1024x1024_S512x1024_1_0_0_1_n_n none
      (truncf .bf16 (shapeCast S512x1024 x0 shapeCasts_S1x512x1024_S512x1024) bitsLt_bf16_f32)
      (shapeCast S1024x1024 x1 shapeCasts_S1024x1024_S1024x1024) (constant (F := Ideal) S512x1024 .f32 0x00000000#32))
    (broadcastTo S512x1024 (shapeCast S1x1024 x2 shapeCasts_S1024_S1x1024) broadcasts_S1x1024_S512x1024)

/-- The scores of the tile's query rows against the 2048 key rows. -/
def sT : FVec Ideal S512x2048 .f32 :=
  matmul dot_S512x1024_S2048x1024_S512x2048_1_1_0_0_n_n none (truncf .bf16 (qT x0 x1 x2) bitsLt_bf16_f32)
    (shapeCast S2048x1024 x3 shapeCasts_S1x2048x1024_S2048x1024) (constant (F := Ideal) S512x2048 .f32 0x00000000#32)

/-- Each row's largest score. -/
def mT : FVec Ideal S512 .f32 :=
  multiReduction .maximumf [1] S512 (sT x0 x1 x2 x3) 0xFF800000#32 reduces_S512x2048_S512 (.inl rfl) rfl

/-- The unnormalised weights. -/
def pT : FVec Ideal S512x2048 .f32 :=
  exp (subf (sT x0 x1 x2 x3)
    (broadcastTo S512x2048 (shapeCast S512x1 (mT x0 x1 x2 x3) shapeCasts_S512_S512x1) broadcasts_S512x1_S512x2048))

/-- Each row's denominator. -/
def lT : FVec Ideal S512 .f32 :=
  multiReduction .add [1] S512 (pT x0 x1 x2 x3) 0x00000000#32 reduces_S512x2048_S512 (.inl rfl) rfl

/-- The stored block is the stages composed. -/
theorem pay_stages : k1_pay1 (F := Ideal) x0 x1 x2 x3 x4
    = shapeCast S1x512x1024 (addf (divf
        (matmul dot_S512x2048_S2048x1024_S512x1024_1_0_0_1_n_n none (truncf .bf16 (pT x0 x1 x2 x3) bitsLt_bf16_f32)
          (shapeCast S2048x1024 x4 shapeCasts_S1x2048x1024_S2048x1024) (constant (F := Ideal) S512x1024 .f32 0x00000000#32))
        (broadcastTo S512x1024 (shapeCast S512x1 (lT x0 x1 x2 x3) shapeCasts_S512_S512x1) broadcasts_S512x1_S512x1024))
      (shapeCast S512x1024 x0 shapeCasts_S1x512x1024_S512x1024)) shapeCasts_S512x1024_S1x512x1024 := rfl

theorem qT_apply (r : Fin 512) (e : Fin 1024) :
    qT x0 x1 x2 (ix2 r e) = (∑ d : Fin 1024, x0 (ix3 (0 : Fin 1) r d) * x1 (ix2 d e)) + x2 (ix1 e) := by
  unfold qT
  refine (addf_apply _ _ _).trans ?_
  refine congrArg₂ (· + ·) ?_ ?_
  · refine (Cert.LibDotPlain.matmul_zero_apply _ none _ _ r e).trans ?_
    refine Finset.sum_congr rfl fun d _ => ?_
    refine congrArg₂ (· * ·) ?_ ?_
    · exact (truncf_apply (ψ := .bf16) (shapeCast S512x1024 x0 shapeCasts_S1x512x1024_S512x1024) bitsLt_bf16_f32 (ix2 r d)).trans
        (shapeCast_1ab_ab_apply x0 _ r d)
    · exact congrFun (shapeCast_self x1 _) (ix2 d e)
  · exact (broadcastTo_1b_ab_apply _ _ r e).trans (shapeCast_a_1a_apply x2 _ 0 e)

theorem sT_apply (r : Fin 512) (t : Fin 2048) :
    sT x0 x1 x2 x3 (ix2 r t) = ∑ e : Fin 1024, qT x0 x1 x2 (ix2 r e) * x3 (ix3 (0 : Fin 1) t e) := by
  unfold sT
  refine (Idealize.ShloMosaic.LibDotLastAxis.matmul_zero_apply _ none _ _ r t).trans ?_
  refine Finset.sum_congr rfl fun e _ => ?_
  exact congrArg₂ (· * ·) (truncf_apply _ _ _) (shapeCast_1ab_ab_apply x3 _ t e)

theorem mT_apply (r : Fin 512) :
    mT x0 x1 x2 x3 (ix1 r) = Cert.Attn.rowMax (fun t => sT x0 x1 x2 x3 (ix2 r t)) := by
  unfold mT Cert.Attn.rowMax
  refine (Ideal.multiReduction_maximumf_single (sT x0 x1 x2 x3) 0xFF800000#32 reduces_S512x2048_S512 (.inl rfl) rfl
    (ix1 r)).trans ?_
  have e1 : (FloatOps.ofBits (F := Ideal) .f32 0xFF800000#32 : EReal) = ⊥ := negInf
  have e2 : (sT x0 x1 x2 x3 ∘ reduces_S512x2048_S512.lift (ix1 r)) = fun t : Fin 2048 => sT x0 x1 x2 x3 (ix2 r t) :=
    funext fun t => congrArg (sT x0 x1 x2 x3) (lift_ix1 _ r t)
  exact congrArg₂ (fun a f => (Finset.univ : Finset (Fin 2048)).fold max a f) e1 e2

theorem pT_apply (r : Fin 512) (t : Fin 2048) :
    pT x0 x1 x2 x3 (ix2 r t) = Cert.Attn.wt (fun t' => sT x0 x1 x2 x3 (ix2 r t')) t := by
  have h1 : pT x0 x1 x2 x3 (ix2 r t) = Ideal.exp (sT x0 x1 x2 x3 (ix2 r t)
      - broadcastTo S512x2048 (shapeCast S512x1 (mT x0 x1 x2 x3) shapeCasts_S512_S512x1) broadcasts_S512x1_S512x2048 (ix2 r t)) := rfl
  have h2 : broadcastTo S512x2048 (shapeCast S512x1 (mT x0 x1 x2 x3) shapeCasts_S512_S512x1) broadcasts_S512x1_S512x2048 (ix2 r t)
      = Cert.Attn.rowMax (fun t' => sT x0 x1 x2 x3 (ix2 r t')) :=
    ((Cert.LibColumn.broadcastTo_a1_ab_apply _ _ r t).trans (Cert.LibColumn.shapeCast_a_a1_apply _ _ r 0)).trans
      (mT_apply x0 x1 x2 x3 r)
  rw [h1, h2]
  rfl

theorem lT_apply (r : Fin 512) :
    lT x0 x1 x2 x3 (ix1 r) = Cert.Attn.den (fun t' => sT x0 x1 x2 x3 (ix2 r t')) := by
  unfold lT Cert.Attn.den
  refine (Ideal.multiReduction_add_single (pT x0 x1 x2 x3) 0x00000000#32 reduces_S512x2048_S512 (.inl rfl) rfl (ix1 r)).trans ?_
  refine Finset.sum_congr rfl fun t _ => ?_
  exact (congrArg (pT x0 x1 x2 x3) (lift_ix1 _ r t)).trans (pT_apply x0 x1 x2 x3 r t)

/-- The stored block at (0, r, e): the weighted sum of the value rows over the denominator, plus the input row. -/
theorem pay_apply (r : Fin 512) (e : Fin 1024) :
    k1_pay1 (F := Ideal) x0 x1 x2 x3 x4 (ix3 (0 : Fin 1) r e)
      = Ideal.div (∑ t : Fin 2048, Cert.Attn.wt (fun t' => sT x0 x1 x2 x3 (ix2 r t')) t * x4 (ix3 (0 : Fin 1) t e))
          (Cert.Attn.den (fun t' => sT x0 x1 x2 x3 (ix2 r t'))) + x0 (ix3 (0 : Fin 1) r e) := by
  rw [pay_stages]
  refine (shapeCast_ab_1ab_apply _ _ 0 r e).trans ?_
  refine (addf_apply _ _ _).trans ?_
  refine congrArg₂ (· + ·) ?_ (shapeCast_1ab_ab_apply x0 _ r e)
  refine (divf_apply _ _ _).trans ?_
  refine congrArg₂ Ideal.div ?_ ?_
  · refine (Cert.LibDotPlain.matmul_zero_apply _ none _ _ r e).trans ?_
    refine Finset.sum_congr rfl fun t _ => ?_
    exact congrArg₂ (· * ·)
      ((truncf_apply (ψ := .bf16) (pT x0 x1 x2 x3) bitsLt_bf16_f32 (ix2 r t)).trans (pT_apply x0 x1 x2 x3 r t))
      (shapeCast_1ab_ab_apply x4 _ t e)
  · exact ((Cert.LibColumn.broadcastTo_a1_ab_apply _ _ r e).trans (Cert.LibColumn.shapeCast_a_a1_apply _ _ r 0)).trans
      (lT_apply x0 x1 x2 x3 r)

/-- With each input block the corresponding rows of its array, the stored entry is attention's entry at the row the
    block's rectangle names. -/
theorem tile_eq (X : Cert.Attn.SX.Idx → EReal) (Wq : Cert.Attn.SW.Idx → EReal) (bq : Cert.Attn.SB.Idx → EReal)
    (K Vv : Cert.Attn.SX.Idx → EReal) (b : Fin 8) (s : Fin 2048) (r : Fin 512) (e : Fin 1024)
    (h0 : ∀ d : Fin 1024, x0 (ix3 (0 : Fin 1) r d) = X (ix3 b s d))
    (h1 : ∀ d e' : Fin 1024, x1 (ix2 d e') = Wq (ix2 d e'))
    (h2 : ∀ e' : Fin 1024, x2 (ix1 e') = bq (ix1 e'))
    (h3 : ∀ (t' : Fin 2048) (e' : Fin 1024), x3 (ix3 (0 : Fin 1) t' e') = K (ix3 b t' e'))
    (h4 : ∀ (t' : Fin 2048) (e' : Fin 1024), x4 (ix3 (0 : Fin 1) t' e') = Vv (ix3 b t' e')) :
    k1_pay1 (F := Ideal) x0 x1 x2 x3 x4 (ix3 (0 : Fin 1) r e)
      = Cert.Attn.attnPost X (Cert.Attn.lin X Wq bq) K Vv (ix3 b s e) := by
  have hq : ∀ e' : Fin 1024, qT x0 x1 x2 (ix2 r e') = Cert.Attn.lin X Wq bq (ix3 b s e') := fun e' => by
    rw [qT_apply]
    simp only [h0, h1, h2]
    rfl
  have hσ : (fun t' => sT x0 x1 x2 x3 (ix2 r t')) = Cert.Attn.score (Cert.Attn.lin X Wq bq) K b s := funext fun t' => by
    rw [sT_apply]
    simp only [hq, h3]
    rfl
  rw [pay_apply, hσ]
  simp only [h4, h0]
  rfl

end Stages

/-! ## The blocks, the write-back and the array -/

variable (V : (c : Dev nD) → (b : Ref sig .tc) → Buf (Elt Ideal) ((c : Thread nD τ).loc b))

/-- The printed index maps, decided once over the grid: the input rows, the keys and the values move with the output's
    block on the batch axis, the input rows also on the row axis; the whole-array windows stay at zero. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_1.index t (0 : Fin 2) = 0 ∧ win1_1.index t (1 : Fin 2) = 0 ∧ win1_2.index t (0 : Fin 1) = 0
    ∧ win1_5.index t (2 : Fin 3) = 0 ∧ win1_5.index t (0 : Fin 3) < 8 ∧ win1_5.index t (1 : Fin 3) < 4 :=
  (by decide +kernel : ∀ t : Fin grid1.N, _)

/-- Every block of the output array is some point's. -/
theorem idx_onto : ∀ (q0 : Fin 8) (q1 : Fin 4), ∃ t : Fin cfg1.N, win1_5.index t = ![q0.val, q1.val, 0] :=
  (by decide +kernel : ∀ (q0 : Fin 8) (q1 : Fin 4), ∃ t : Fin grid1.N, win1_5.index t = ![q0.val, q1.val, 0])

/-- A rank-3 input block at a block index is its array at the index the point's rectangle names. -/
theorem blk0_apply (c : Dev nD) (t : Fin cfg1.N) (y : S1x512x1024.Idx) (k : S8x2048x1024.Idx)
    (k0 : (k 0).val = win1_0.index t (0 : Fin 3) * 1 + 1 * (y 0).val)
    (k1 : (k 1).val = win1_0.index t (1 : Fin 3) * 512 + 1 * (y 1).val)
    (k2 : (k 2).val = win1_0.index t (2 : Fin 3) * 1024 + 1 * (y 2).val) :
    (iblk1 V c 0 t : FVec Ideal S1x512x1024 .f32) y = (V c main_arg0 : S8x2048x1024.Idx → EReal) k := by
  unfold iblk1
  rw [View.read_apply]
  show (V c main_arg0 : S8x2048x1024.Idx → EReal) _ = (V c main_arg0 : S8x2048x1024.Idx → EReal) k
  congr 1
  funext a
  apply Fin.ext
  match a with
  | ⟨0, _⟩ => show win1_0.index t (0 : Fin 3) * 1 + 1 * (y 0).val = (k 0).val; omega
  | ⟨1, _⟩ => show win1_0.index t (1 : Fin 3) * 512 + 1 * (y 1).val = (k 1).val; omega
  | ⟨2, _⟩ => show win1_0.index t (2 : Fin 3) * 1024 + 1 * (y 2).val = (k 2).val; omega

theorem blk3_apply (c : Dev nD) (t : Fin cfg1.N) (y : S1x2048x1024.Idx) (k : S8x2048x1024.Idx)
    (k0 : (k 0).val = win1_3.index t (0 : Fin 3) * 1 + 1 * (y 0).val)
    (k1 : (k 1).val = win1_3.index t (1 : Fin 3) * 2048 + 1 * (y 1).val)
    (k2 : (k 2).val = win1_3.index t (2 : Fin 3) * 1024 + 1 * (y 2).val) :
    (iblk1 V c 3 t : FVec Ideal S1x2048x1024 .bf16) y = (V c main_v3_0 : S8x2048x1024.Idx → EReal) k := by
  unfold iblk1
  rw [View.read_apply]
  show (V c main_v3_0 : S8x2048x1024.Idx → EReal) _ = (V c main_v3_0 : S8x2048x1024.Idx → EReal) k
  congr 1
  funext a
  apply Fin.ext
  match a with
  | ⟨0, _⟩ => show win1_3.index t (0 : Fin 3) * 1 + 1 * (y 0).val = (k 0).val; omega
  | ⟨1, _⟩ => show win1_3.index t (1 : Fin 3) * 2048 + 1 * (y 1).val = (k 1).val; omega
  | ⟨2, _⟩ => show win1_3.index t (2 : Fin 3) * 1024 + 1 * (y 2).val = (k 2).val; omega

theorem blk4_apply (c : Dev nD) (t : Fin cfg1.N) (y : S1x2048x1024.Idx) (k : S8x2048x1024.Idx)
    (k0 : (k 0).val = win1_4.index t (0 : Fin 3) * 1 + 1 * (y 0).val)
    (k1 : (k 1).val = win1_4.index t (1 : Fin 3) * 2048 + 1 * (y 1).val)
    (k2 : (k 2).val = win1_4.index t (2 : Fin 3) * 1024 + 1 * (y 2).val) :
    (iblk1 V c 4 t : FVec Ideal S1x2048x1024 .bf16) y = (V c main_v3_1 : S8x2048x1024.Idx → EReal) k := by
  unfold iblk1
  rw [View.read_apply]
  show (V c main_v3_1 : S8x2048x1024.Idx → EReal) _ = (V c main_v3_1 : S8x2048x1024.Idx → EReal) k
  congr 1
  funext a
  apply Fin.ext
  match a with
  | ⟨0, _⟩ => show win1_4.index t (0 : Fin 3) * 1 + 1 * (y 0).val = (k 0).val; omega
  | ⟨1, _⟩ => show win1_4.index t (1 : Fin 3) * 2048 + 1 * (y 1).val = (k 1).val; omega
  | ⟨2, _⟩ => show win1_4.index t (2 : Fin 3) * 1024 + 1 * (y 2).val = (k 2).val; omega

theorem blk1_apply (c : Dev nD) (t : Fin cfg1.N) (y : S1024x1024.Idx) :
    (iblk1 V c 1 t : FVec Ideal S1024x1024 .bf16) y = (V c main_v0 : S1024x1024.Idx → EReal) y := by
  obtain ⟨-, -, -, -, -, -, -, -, -, f10, f11, -⟩ := idx_facts t
  unfold iblk1
  rw [View.read_apply]
  show (V c main_v0 : S1024x1024.Idx → EReal) _ = (V c main_v0 : S1024x1024.Idx → EReal) y
  congr 1
  funext a
  apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

theorem blk2_apply (c : Dev nD) (t : Fin cfg1.N) (y : S1024.Idx) :
    (iblk1 V c 2 t : FVec Ideal S1024 .f32) y = (V c main_arg2 : S1024.Idx → EReal) y := by
  obtain ⟨-, -, -, -, -, -, -, -, -, -, -, f20, -⟩ := idx_facts t
  unfold iblk1
  rw [View.read_apply]
  show (V c main_arg2 : S1024.Idx → EReal) _ = (V c main_arg2 : S1024.Idx → EReal) y
  congr 1
  funext a
  apply Fin.ext
  match a with
  | ⟨0, _⟩ => show win1_2.index t (0 : Fin 1) * 1024 + 1 * (y 0).val = (y 0).val; omega

/-- The array the call's output ends holding: attention with the late division, of the arrays found on entry. -/
abbrev G (c : Dev nD) : S8x2048x1024.Idx → EReal :=
  Cert.Attn.attnPost (V c main_arg0) (Cert.Attn.lin (V c main_arg0) (V c main_v0) (V c main_arg2)) (V c main_v3_0) (V c main_v3_1)

/-- WHAT POINT t WRITES BACK is block t of attention of the entry arrays. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz3]
  simp only [View.ld_unit_zero (S := S1x512x1024) hz3, View.ld_unit_zero (S := S1024x1024) hz2,
    View.ld_unit_zero (S := S1024) hz1, View.ld_unit_zero (S := S1x2048x1024) hz3]
  obtain ⟨f00, f01, f02, f30, f31, f32, f40, f41, f42, f10, f11, f20, f52, f50, f51⟩ := idx_facts t
  funext j
  obtain ⟨u, r, e, rfl⟩ : ∃ (u : Fin 1) (r : Fin 512) (e : Fin 1024), j = ix3 u r e := ⟨j 0, j 1, j 2, eq_ix3 j⟩
  obtain rfl : u = 0 := Subsingleton.elim _ _
  have hb : win1_5.index t (0 : Fin 3) * 1 + 1 * 0 < 8 := by omega
  have hs : win1_5.index t (1 : Fin 3) * 512 + 1 * r.val < 2048 := by have := r.isLt; omega
  have hemb : ((cfg1.win 5).blk t).view.emb (ix3 (0 : Fin 1) r e)
      = ix3 (⟨win1_5.index t (0 : Fin 3) * 1 + 1 * 0, hb⟩ : Fin 8) (⟨win1_5.index t (1 : Fin 3) * 512 + 1 * r.val, hs⟩ : Fin 2048) e := by
    funext a
    apply Fin.ext
    match a with
    | ⟨0, _⟩ => rfl
    | ⟨1, _⟩ => rfl
    | ⟨2, _⟩ => show win1_5.index t (2 : Fin 3) * 1024 + 1 * e.val = e.val; omega
  show k1_pay1 (F := Ideal) (iblk1 V c 0 t) (iblk1 V c 1 t) (iblk1 V c 2 t) (iblk1 V c 3 t) (iblk1 V c 4 t) (ix3 (0 : Fin 1) r e)
    = G V c (((cfg1.win 5).blk t).view.emb (ix3 (0 : Fin 1) r e))
  rw [hemb]
  refine tile_eq (iblk1 V c 0 t) (iblk1 V c 1 t) (iblk1 V c 2 t) (iblk1 V c 3 t) (iblk1 V c 4 t)
    (V c main_arg0) (V c main_v0) (V c main_arg2) (V c main_v3_0) (V c main_v3_1) _ _ r e ?_ ?_ ?_ ?_ ?_
  · intro d
    refine blk0_apply V c t _ _ ?_ ?_ ?_
    · show win1_5.index t (0 : Fin 3) * 1 + 1 * 0 = win1_0.index t (0 : Fin 3) * 1 + 1 * 0; omega
    · show win1_5.index t (1 : Fin 3) * 512 + 1 * r.val = win1_0.index t (1 : Fin 3) * 512 + 1 * r.val; omega
    · show d.val = win1_0.index t (2 : Fin 3) * 1024 + 1 * d.val; omega
  · intro d e'
    exact blk1_apply V c t (ix2 d e')
  · intro e'
    exact blk2_apply V c t (ix1 e')
  · intro t' e'
    refine blk3_apply V c t _ _ ?_ ?_ ?_
    · show win1_5.index t (0 : Fin 3) * 1 + 1 * 0 = win1_3.index t (0 : Fin 3) * 1 + 1 * 0; omega
    · show t'.val = win1_3.index t (1 : Fin 3) * 2048 + 1 * t'.val; omega
    · show e'.val = win1_3.index t (2 : Fin 3) * 1024 + 1 * e'.val; omega
  · intro t' e'
    refine blk4_apply V c t _ _ ?_ ?_ ?_
    · show win1_5.index t (0 : Fin 3) * 1 + 1 * 0 = win1_4.index t (0 : Fin 3) * 1 + 1 * 0; omega
    · show t'.val = win1_4.index t (1 : Fin 3) * 2048 + 1 * t'.val; omega
    · show e'.val = win1_4.index t (2 : Fin 3) * 1024 + 1 * e'.val; omega

/-- An index of the output array is in point t's block iff each coordinate is in the block's range on its axis. -/
theorem mem_blk (t : Fin cfg1.N) (i : S8x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v4).slice (win1_5.rect t)).set ↔ _
  rw [View.set_slice_whole, Rect.mem_set_unit]
  exact Iff.rfl

/-- Every index of the output array is in some point's block: row s of sequence b is in the block of point (b, s / 512). -/
theorem cover (i : S8x2048x1024.Idx) :
    ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-- After the call the output array holds attention (late division) of the input array, the query layer of the input
    with the second and third operands, and the key and value arrays the call finds on entry. -/
theorem attended (c : Dev nD) :
    ((dat1 (F := Ideal) V c).arrAt 5 cfg1.N : S8x2048x1024.Idx → EReal)
      = Cert.Attn.attnPost (V c main_arg0) (Cert.Attn.lin (V c main_arg0) (V c main_v0) (V c main_arg2))
          (V c main_v3_0) (V c main_v3_1) :=
  (dat1 (F := Ideal) V c).arrAt_eq_of_cover 5 (G V c) (fun t _ => flushed_eq V c t) cover

end Cert.KernelIdeal.Region1

end
-- ==== Proof.KernelValue.lean ====
/-
  The kernel program's result as a function of the launch memory. The result buffer at the last segment boundary is the
  second call's output array; that call finds the input and the query bias as launched, the query weights as the host's
  cast of the launched weights (a change of float format: the identity on extended reals), and the key and value arrays
  as the first call left them, which are the two linear layers of the launched input. Composed: `Cert.Attn.outPost` of
  the seven launched arrays.
-/
import proofs.«412914_j7980049236170_3_alg».proof.Defs
import proofs.«412914_j7980049236170_3_alg».proof.Proof.Gen.KernelIdeal.Frame
import proofs.«412914_j7980049236170_3_alg».proof.Proof.Spec
import proofs.«412914_j7980049236170_3_alg».proof.Proof.Region0
import proofs.«412914_j7980049236170_3_alg».proof.Proof.Region1
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## What the first call finds: the launch memory under the three casts -/

theorem V1_arg0 (c : Dev nD) : V1 m ρ c main_arg0 = m ((c : Thread nD τ).loc main_arg0) := by
  show StableHlo.after hostOps0 (W0 m ρ c) (Proc.devRef .tc main_arg0) = _
  after_results
  all_goals rfl
theorem V1_arg2 (c : Dev nD) : V1 m ρ c main_arg2 = m ((c : Thread nD τ).loc main_arg2) := by
  show StableHlo.after hostOps0 (W0 m ρ c) (Proc.devRef .tc main_arg2) = _
  after_results
  all_goals rfl
theorem V1_arg4 (c : Dev nD) : V1 m ρ c main_arg4 = m ((c : Thread nD τ).loc main_arg4) := by
  show StableHlo.after hostOps0 (W0 m ρ c) (Proc.devRef .tc main_arg4) = _
  after_results
  all_goals rfl
theorem V1_arg6 (c : Dev nD) : V1 m ρ c main_arg6 = m ((c : Thread nD τ).loc main_arg6) := by
  show StableHlo.after hostOps0 (W0 m ρ c) (Proc.devRef .tc main_arg6) = _
  after_results
  all_goals rfl

/-- The cast query weights are the launched ones, entry by entry. -/
theorem V1_v0 (c : Dev nD) : (V1 m ρ c main_v0 : S1024x1024.Idx → EReal) = m ((c : Thread nD τ).loc main_arg1) := by
  show (StableHlo.after hostOps0 (W0 m ρ c) (Proc.devRef .tc main_v0) : S1024x1024.Idx → EReal) = _
  after_results
  all_goals rfl
theorem V1_v1 (c : Dev nD) : (V1 m ρ c main_v1 : S1024x1024.Idx → EReal) = m ((c : Thread nD τ).loc main_arg3) := by
  show (StableHlo.after hostOps0 (W0 m ρ c) (Proc.devRef .tc main_v1) : S1024x1024.Idx → EReal) = _
  after_results
  all_goals rfl
theorem V1_v2 (c : Dev nD) : (V1 m ρ c main_v2 : S1024x1024.Idx → EReal) = m ((c : Thread nD τ).loc main_arg5) := by
  show (StableHlo.after hostOps0 (W0 m ρ c) (Proc.devRef .tc main_v2) : S1024x1024.Idx → EReal) = _
  after_results
  all_goals rfl

/-! ## What the second call finds -/

/-- An input array of the second call that the first call also only reads: as launched. -/
theorem V2_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)
theorem V2_arg2 (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)

/-- The cast query weights pass the first call untouched. -/
theorem V2_v0 (c : Dev nD) : (V2 m ρ c main_v0 : S1024x1024.Idx → EReal) = m ((c : Thread nD τ).loc main_arg1) :=
  (W2_of_ne m ρ c main_v0 (by decide)).trans (V1_v0 m ρ c)

/-- The key rows the first call leaves. -/
theorem V2_keys (c : Dev nD) : (V2 m ρ c main_v3_0 : S8x2048x1024.Idx → EReal)
    = Cert.Attn.lin (m ((c : Thread nD τ).loc main_arg0)) (m ((c : Thread nD τ).loc main_arg3)) (m ((c : Thread nD τ).loc main_arg4)) := by
  refine (W2_arr m ρ c 5).trans ?_
  rw [Cert.KernelIdeal.Region0.keys (V1 m ρ) c, V1_arg0, V1_v1, V1_arg4]

/-- The value rows the first call leaves. -/
theorem V2_values (c : Dev nD) : (V2 m ρ c main_v3_1 : S8x2048x1024.Idx → EReal)
    = Cert.Attn.lin (m ((c : Thread nD τ).loc main_arg0)) (m ((c : Thread nD τ).loc main_arg5)) (m ((c : Thread nD τ).loc main_arg6)) := by
  refine (W2_arr m ρ c 6).trans ?_
  rw [Cert.KernelIdeal.Region0.values (V1 m ρ) c, V1_arg0, V1_v2, V1_arg6]

/-! ## The result -/

/-- The result buffer at the last boundary is the whole layer, late division, of the launched arrays. -/
theorem result_eq (c : Dev nD) : (W3 m ρ c (Proc.devRef .tc main_v4) : S8x2048x1024.Idx → EReal)
    = Cert.Attn.outPost (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W3_arr m ρ c 5).trans ?_
  rw [Cert.KernelIdeal.Region1.attended (V2 m ρ) c, V2_arg0, V2_v0, V2_arg2, V2_keys, V2_values]
  rfl

end Cert.KernelIdeal.KValue

end
-- ==== Proof.RefValue.lean ====
/-
  The reference program's result, entry by entry: three linear layers, the scores of every query row against the key rows
  of its batch, a softmax over the key axis written as exp (σ − max σ) divided by its sum, the weighted sum of the value
  rows, and the residual. That is `Cert.Attn.outPre`, the form that divides each weight before the sum.

  The stages are read one at a time at coordinates (b, s, ·): a linear layer's entry is the contraction over the input
  feature plus the bias entry; a score is the inner product of a query row and a key row; the row maximum is the fold of
  `max` from −∞ over the key axis (and the further maximum with −∞ changes nothing); a weight is the exponential of the
  score less the row maximum; the denominator is 0 plus the sum of the weights; a normalised weight is the quotient;
  the output entry is the contraction of the normalised weights with the value rows, plus the input entry.
-/
import proofs.«412914_j7980049236170_3_alg».proof.Defs
import proofs.«412914_j7980049236170_3_alg».proof.Proof.Gen.ReferenceIdeal.Run
import proofs.«412914_j7980049236170_3_alg».proof.Proof.Gen.ReferenceIdeal.Read
import proofs.«412914_j7980049236170_3_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read
open Cert.Attn (lin score rowMax wt den attnPre outPre)

/-! ## Where each stage reads its operands, at coordinates -/

section Indices

variable (b : Fin 8) (s t : Fin 2048) (e k : Fin 1024)

/-- A linear layer's contraction reads the input at (b, s, k) … -/
theorem lidx_lin : lidx_main_v0 (ix3 b s e) k = ix3 b s k :=
  funext fun a => Fin.ext (by match a with | ⟨0, _⟩ => rfl | ⟨1, _⟩ => rfl | ⟨2, _⟩ => rfl)
/-- … and the weight matrix at (k, e). -/
theorem ridx_lin : ridx_main_v0 (ix3 b s e) k = ix2 k e :=
  funext fun a => Fin.ext (by match a with | ⟨0, _⟩ => rfl | ⟨1, _⟩ => rfl)
/-- The bias, broadcast over batch and row, is read at e. -/
theorem idx_bias : idx_main_v1 (idx_main_v2 (ix3 b s e)) = ix1 e :=
  funext fun a => Fin.ext (by match a with | ⟨0, _⟩ => rfl)
/-- The score at (b, s, t) contracts the query row (b, s, ·) … -/
theorem lidx_score : lidx_main_v12 (ix3 b s t) k = ix3 b s k :=
  funext fun a => Fin.ext (by match a with | ⟨0, _⟩ => rfl | ⟨1, _⟩ => rfl | ⟨2, _⟩ => rfl)
/-- … with the key row (b, t, ·). -/
theorem ridx_score : ridx_main_v12 (ix3 b s t) k = ix3 b t k :=
  funext fun a => Fin.ext (by match a with | ⟨0, _⟩ => rfl | ⟨1, _⟩ => rfl | ⟨2, _⟩ => rfl)
/-- The row maximum, broadcast along the key axis, is read at (b, s). -/
theorem idx_rowmax : idx_main_v16 (idx_main_v17 (ix3 b s t)) = ix2 b s :=
  funext fun a => Fin.ext (by match a with | ⟨0, _⟩ => rfl | ⟨1, _⟩ => rfl)
/-- The denominator at (b, s) sums the weights at (b, s, t) over t. -/
theorem idx_den_sum : idx_main_v20 (ix2 b s) t = ix3 b s t :=
  funext fun a => Fin.ext (by match a with | ⟨0, _⟩ => rfl | ⟨1, _⟩ => rfl | ⟨2, _⟩ => rfl)
/-- The denominator, broadcast along the key axis, is read at (b, s). -/
theorem idx_den : idx_main_v21 (idx_main_v22 (ix3 b s t)) = ix2 b s :=
  funext fun a => Fin.ext (by match a with | ⟨0, _⟩ => rfl | ⟨1, _⟩ => rfl)
/-- The last contraction reads the normalised weight at (b, s, t) … -/
theorem lidx_out : lidx_main_v24 (ix3 b s e) t = ix3 b s t :=
  funext fun a => Fin.ext (by match a with | ⟨0, _⟩ => rfl | ⟨1, _⟩ => rfl | ⟨2, _⟩ => rfl)
/-- … and the value row t of batch b at feature e. -/
theorem ridx_out : ridx_main_v24 (ix3 b s e) t = ix3 b t e :=
  funext fun a => Fin.ext (by match a with | ⟨0, _⟩ => rfl | ⟨1, _⟩ => rfl | ⟨2, _⟩ => rfl)
/-- Inserting the key coordinate t on the reduced axis of (b, s) gives (b, s, t). -/
theorem lift_key (h : S8x2048x2048.Reduces [2] S8x2048) : h.lift (ix2 b s) t = ix3 b s t :=
  funext fun a => Fin.ext (by match a with | ⟨0, _⟩ => rfl | ⟨1, _⟩ => rfl | ⟨2, _⟩ => rfl)

end Indices

/-! ## The three linear layers -/

/-- A linear layer at (b, s, e): the sum over the input feature of input times weight, plus the bias entry. -/
theorem linear_at (x : (⟨S8x2048x1024, .f32⟩ : BufTy).Contents (Elt Ideal)) (W : (⟨S1024x1024, .f32⟩ : BufTy).Contents (Elt Ideal))
    (β : (⟨S1024, .f32⟩ : BufTy).Contents (Elt Ideal)) (b : Fin 8) (s : Fin 2048) (e : Fin 1024) :
    val_main_v3 (F := Ideal) x W β (ix3 b s e) = lin x W β (ix3 b s e) := by
  rw [val_main_v3_apply, val_main_v0_apply, val_main_v2_apply, val_main_v1_apply]
  simp only [lidx_lin, ridx_lin, idx_bias, Ideal.addf_def]
  rfl

/-- So the query layer is `lin` as a function. -/
theorem linear_eq (x : (⟨S8x2048x1024, .f32⟩ : BufTy).Contents (Elt Ideal)) (W : (⟨S1024x1024, .f32⟩ : BufTy).Contents (Elt Ideal))
    (β : (⟨S1024, .f32⟩ : BufTy).Contents (Elt Ideal)) : val_main_v3 (F := Ideal) x W β = lin x W β := by
  funext i
  obtain ⟨b, s, e, rfl⟩ : ∃ (b : Fin 8) (s : Fin 2048) (e : Fin 1024), i = ix3 b s e := ⟨i 0, i 1, i 2, eq_ix3 i⟩
  exact linear_at x W β b s e

/-- The key layer is the same three operations applied to its own weight and bias. -/
theorem key_eq (x : (⟨S8x2048x1024, .f32⟩ : BufTy).Contents (Elt Ideal)) (W : (⟨S1024x1024, .f32⟩ : BufTy).Contents (Elt Ideal))
    (β : (⟨S1024, .f32⟩ : BufTy).Contents (Elt Ideal)) : val_main_v7 (F := Ideal) x W β = lin x W β :=
  linear_eq x W β

/-- The value layer likewise. -/
theorem value_eq (x : (⟨S8x2048x1024, .f32⟩ : BufTy).Contents (Elt Ideal)) (W : (⟨S1024x1024, .f32⟩ : BufTy).Contents (Elt Ideal))
    (β : (⟨S1024, .f32⟩ : BufTy).Contents (Elt Ideal)) : val_main_v11 (F := Ideal) x W β = lin x W β :=
  linear_eq x W β

/-! ## Scores, row maximum, weights, denominator -/

/-- The score of query row (b, s) against key row t: the inner product over the features. -/
theorem score_at (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (s t : Fin 2048) :
    val_main_v12 (F := Ideal) x0 x1 x2 x3 x4 (ix3 b s t) = score (lin x0 x1 x2) (lin x0 x3 x4) b s t := by
  rw [val_main_v12_apply, linear_eq, key_eq]
  simp only [lidx_score, ridx_score]
  rfl

/-- The word 0xFF800000 is −∞. -/
theorem negInf : Ideal.ofBits .f32 0xFF800000#32 = (⊥ : EReal) := by simp [Ideal.ofBits, Ideal.ieee]

/-- A maximum-reduction over the key axis, from an initial value that is −∞, at (b, s), of an array whose row (b, s, ·) is σ:
    the row maximum of σ. The operation is commutative and associative, so the reduction is the fold over the key
    coordinates in any order. -/
theorem reduce_max_row (y : S8x2048x2048.Idx → EReal) (init : S_.Idx → EReal)
    (h' : S8x2048x2048.ReducesTo [2] S8x2048) (hu : 0 < S_.numel) (σ : Fin 2048 → EReal) (b : Fin 8) (s : Fin 2048)
    (hinit : init (Shape.Idx.first hu) = (⊥ : EReal)) (hy : ∀ t : Fin 2048, y (ix3 b s t) = σ t) :
    Host.reduce (FloatOps.maximumf (F := Ideal) (φ := .f32)) y init h' hu (ix2 b s) = rowMax σ := by
  have h : S8x2048x2048.Reduces [2] S8x2048 := by decide
  refine (Host.reduce_eq_fold_single (FloatOps.maximumf (F := Ideal) (φ := .f32)) y init h' h hu (ix2 b s)).trans ?_
  show (Finset.univ : Finset (Fin 2048)).fold (max : EReal → EReal → EReal) (init (Shape.Idx.first hu)) (fun t => y (h.lift (ix2 b s) t))
    = (Finset.univ : Finset (Fin 2048)).fold max ⊥ σ
  rw [hinit]
  exact Finset.fold_congr fun t _ => (congrArg y (lift_key b s t h)).trans (hy t)

/-- The reduction stage at (b, s) is the row maximum of the scores of (b, s). -/
theorem reduce_at (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (s : Fin 2048) :
    val_main_v13 (F := Ideal) x0 x1 x2 x3 x4 (ix2 b s) = rowMax (score (lin x0 x1 x2) (lin x0 x3 x4) b s) := by
  unfold val_main_v13
  exact reduce_max_row (val_main_v12 (F := Ideal) x0 x1 x2 x3 x4) (val_main_cst (F := Ideal)) reducesTo_S8x2048x2048_S8x2048_d2 h_S_
    (score (lin x0 x1 x2) (lin x0 x3 x4) b s) b s (by rw [val_main_cst_apply, Ideal.ofBits_def, negInf])
    (fun t => score_at x0 x1 x2 x3 x4 b s t)

/-- Taking the maximum with −∞ once more changes nothing. -/
theorem rowmax_at (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (s : Fin 2048) :
    val_main_v15 (F := Ideal) x0 x1 x2 x3 x4 (ix2 b s) = rowMax (score (lin x0 x1 x2) (lin x0 x3 x4) b s) := by
  rw [val_main_v15_apply, val_main_v14_apply, val_main_cst_0_apply, reduce_at]
  simp only [Ideal.maximumf_def, Ideal.ofBits_def, negInf, max_bot_left]

/-- The weight at (b, s, t): the exponential of the score less the row maximum. -/
theorem weight_at (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (s t : Fin 2048) :
    val_main_v19 (F := Ideal) x0 x1 x2 x3 x4 (ix3 b s t) = wt (score (lin x0 x1 x2) (lin x0 x3 x4) b s) t := by
  rw [val_main_v19_apply, val_main_v18_apply, val_main_v17_apply, val_main_v16_apply, idx_rowmax, rowmax_at, score_at]
  simp only [Ideal.hostUnary_exp_def, Ideal.subf_def]
  rfl

/-- The denominator at (b, s): zero plus the sum of the weights of the row. -/
theorem den_at (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (s : Fin 2048) :
    val_main_v20 (F := Ideal) x0 x1 x2 x3 x4 (ix2 b s) = den (score (lin x0 x1 x2) (lin x0 x3 x4) b s) := by
  rw [val_main_v20_apply, val_main_cst_1_apply, Ideal.ofBits_def, Ideal.ofBits_zero_f32, zero_add]
  unfold Cert.Attn.den
  refine Finset.sum_congr rfl fun t _ => ?_
  rw [idx_den_sum, weight_at]

/-- The normalised weight at (b, s, t): the weight divided by the denominator of its row. -/
theorem normalised_at (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 8) (s t : Fin 2048) :
    val_main_v23 (F := Ideal) x0 x1 x2 x3 x4 (ix3 b s t)
      = Ideal.div (wt (score (lin x0 x1 x2) (lin x0 x3 x4) b s) t) (den (score (lin x0 x1 x2) (lin x0 x3 x4) b s)) := by
  rw [val_main_v23_apply, val_main_v22_apply, val_main_v21_apply, idx_den, den_at, weight_at, Ideal.hostDivf_def]

/-! ## The output -/

/-- Attention with the early division, at (b, s, e). -/
theorem attnPre_at (x q k v : Cert.Attn.SX.Idx → EReal) (b : Fin 8) (s : Fin 2048) (e : Fin 1024) :
    attnPre x q k v (ix3 b s e)
      = (∑ t : Fin 2048, Ideal.div (wt (score q k b s) t) (den (score q k b s)) * v (ix3 b t e)) + x (ix3 b s e) := rfl

/-- The reference's last stage, as a function of the seven arguments, is attention with the early division. -/
theorem ref_is_outPre (x0 : (⟨S8x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) :
    val_main_v25 (F := Ideal) x0 x1 x2 x3 x4 x5 x6 = Cert.Attn.outPre x0 x1 x2 x3 x4 x5 x6 := by
  funext i
  obtain ⟨b, s, e, rfl⟩ : ∃ (b : Fin 8) (s : Fin 2048) (e : Fin 1024), i = ix3 b s e := ⟨i 0, i 1, i 2, eq_ix3 i⟩
  rw [val_main_v25_apply, val_main_v24_apply, value_eq, Ideal.addf_def]
  show _ = attnPre x0 (lin x0 x1 x2) (lin x0 x3 x4) (lin x0 x5 x6) (ix3 b s e)
  rw [attnPre_at]
  refine congrArg (fun z => z + x0 (ix3 b s e)) (Finset.sum_congr rfl fun t _ => ?_)
  rw [lidx_out, ridx_out, normalised_at]

end Cert.ReferenceIdeal.RefValue

end
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.LibSoftmaxMerge.lean ====
/-
  Softmax merge algebra on the extended reals.

  A softmax over a finite key set can be computed blockwise: each block S carries its
  maximum (top σ S), its shifted denominator den σ S (top σ S) = ∑_{j∈S} exp (σ j - top σ S)
  and its shifted numerator num σ ν S (top σ S) = ∑_{j∈S} exp (σ j - top σ S) * ν j.
  Two blocks are joined by rescaling each to the common maximum; this file proves that the
  joined state is the state of the union, for real-valued scores and values, with the
  extended-real exponential Ideal.exp (exp ⊥ = 0, exp ⊤ = ⊤, exp ↑r = ↑(Real.exp r)).

  Method throughout: choose real witnesses for the scores and values, prove the identity in
  ℝ (Real.exp_add, distributivity of finite sums), and push the coercion ℝ → EReal
  through sums, products and differences.
-/
import Idealize.ShloMosaic.PureOps.Ideal
import Mathlib.Data.EReal.Basic
import Mathlib.Data.EReal.Operations
import Mathlib.Analysis.SpecialFunctions.Exp
import Mathlib.Algebra.BigOperators.Group.Finset.Basic
import Mathlib.Algebra.BigOperators.Ring.Finset
import Mathlib.Data.Finset.Lattice.Fold

open Idealize.ShloMosaic
open scoped BigOperators

namespace Cert.Hand.SoftmaxMerge

/-! ### The three quantities of a block -/

/-- The maximum score of a block (⊥ for the empty block). -/
noncomputable def top {J : Type*} (σ : J → EReal) (S : Finset J) : EReal := S.sup σ

/-- The denominator of a block, shifted by M: ∑_{j∈S} exp (σ j - M). -/
noncomputable def den {J : Type*} (σ : J → EReal) (S : Finset J) (M : EReal) : EReal :=
  ∑ j ∈ S, Ideal.exp (σ j - M)

/-- The numerator of a block, shifted by M: ∑_{j∈S} exp (σ j - M) * ν j. -/
noncomputable def num {J : Type*} (σ ν : J → EReal) (S : Finset J) (M : EReal) : EReal :=
  ∑ j ∈ S, Ideal.exp (σ j - M) * ν j

/-! ### Coercion helpers -/

/-- The coercion ℝ → EReal commutes with finite sums. -/
theorem coe_sum {J : Type*} [DecidableEq J] (S : Finset J) (f : J → ℝ) :
    ((∑ j ∈ S, f j : ℝ) : EReal) = ∑ j ∈ S, (f j : EReal) := by
  induction S using Finset.induction_on with
  | empty => simp
  | insert a s ha ih => rw [Finset.sum_insert ha, Finset.sum_insert ha, EReal.coe_add, ih]

/-- The coercion ℝ → EReal commutes with max. -/
theorem coe_max (a b : ℝ) : ((max a b : ℝ) : EReal) = max (a : EReal) (b : EReal) :=
  EReal.coe_strictMono.monotone.map_max

/-- exp of a difference of two reals, at the extended reals. -/
theorem exp_coe_sub (a b : ℝ) :
    Ideal.exp ((a : EReal) - (b : EReal)) = ((Real.exp (a - b) : ℝ) : EReal) := by
  rw [← EReal.coe_sub, Ideal.exp_coe]

/-- A real-valued family is the coercion of a real family. -/
theorem exists_real_fun {J : Type*} (σ : J → EReal) (hσ : ∀ j, ∃ r : ℝ, σ j = (r : EReal)) :
    ∃ s : J → ℝ, σ = fun j => (s j : EReal) := by
  choose s hs using hσ
  exact ⟨s, funext hs⟩

/-- The denominator of a real-valued block at a real shift, as a real sum. -/
theorem den_coe {J : Type*} [DecidableEq J] (s : J → ℝ) (S : Finset J) (M : ℝ) :
    den (fun j => (s j : EReal)) S (M : EReal)
      = ((∑ j ∈ S, Real.exp (s j - M) : ℝ) : EReal) := by
  unfold den
  rw [coe_sum]
  exact Finset.sum_congr rfl (fun j _ => exp_coe_sub (s j) M)

/-- The numerator of a real-valued block at a real shift, as a real sum. -/
theorem num_coe {J : Type*} [DecidableEq J] (s v : J → ℝ) (S : Finset J) (M : ℝ) :
    num (fun j => (s j : EReal)) (fun j => (v j : EReal)) S (M : EReal)
      = ((∑ j ∈ S, Real.exp (s j - M) * v j : ℝ) : EReal) := by
  unfold num
  rw [coe_sum]
  refine Finset.sum_congr rfl (fun j _ => ?_)
  rw [exp_coe_sub, ← EReal.coe_mul]

/-! ### (A) The maximum -/

/-- The maximum of a nonempty real-valued block is real. -/
theorem top_real {J : Type*} [DecidableEq J] (σ : J → EReal)
    (hσ : ∀ j, ∃ r : ℝ, σ j = (r : EReal)) (S : Finset J) (hS : S.Nonempty) :
    ∃ r : ℝ, top σ S = (r : EReal) := by
  obtain ⟨i, _, hi⟩ := Finset.exists_mem_eq_sup S hS σ
  obtain ⟨r, hr⟩ := hσ i
  exact ⟨r, by rw [top, hi, hr]⟩

/-- The maximum of a union is the larger of the two maxima. -/
theorem top_union {J : Type*} [DecidableEq J] (σ : J → EReal) (S T : Finset J) :
    top σ (S ∪ T) = max (top σ S) (top σ T) := by
  unfold top
  exact Finset.sup_union

/-- The maximum of the empty block is ⊥. -/
theorem top_empty {J : Type*} (σ : J → EReal) : top σ (∅ : Finset J) = ⊥ := by
  unfold top
  exact Finset.sup_empty

/-! ### (B) Denominator and numerator are real at a real shift -/

/-- The denominator of a real-valued block at a real shift is real. -/
theorem den_real {J : Type*} [DecidableEq J] (σ : J → EReal)
    (hσ : ∀ j, ∃ r : ℝ, σ j = (r : EReal)) (S : Finset J) (M : ℝ) :
    ∃ r : ℝ, den σ S (M : EReal) = (r : EReal) := by
  obtain ⟨s, rfl⟩ := exists_real_fun σ hσ
  exact ⟨_, den_coe s S M⟩

/-- The numerator of a real-valued block at a real shift is real. -/
theorem num_real {J : Type*} [DecidableEq J] (σ ν : J → EReal)
    (hσ : ∀ j, ∃ r : ℝ, σ j = (r : EReal)) (hν : ∀ j, ∃ r : ℝ, ν j = (r : EReal))
    (S : Finset J) (M : ℝ) :
    ∃ r : ℝ, num σ ν S (M : EReal) = (r : EReal) := by
  obtain ⟨s, rfl⟩ := exists_real_fun σ hσ
  obtain ⟨v, rfl⟩ := exists_real_fun ν hν
  exact ⟨_, num_coe s v S M⟩

/-! ### Rescaling a block and splitting a union -/

/-- Rescaling a denominator from the real shift a to the real shift c:
    (∑ exp (σ j - a)) * exp (a - c) = ∑ exp (σ j - c). -/
theorem den_rescale {J : Type*} [DecidableEq J] (σ : J → EReal)
    (hσ : ∀ j, ∃ r : ℝ, σ j = (r : EReal)) (S : Finset J) (a c : ℝ) :
    den σ S (a : EReal) * Ideal.exp ((a : EReal) - (c : EReal)) = den σ S (c : EReal) := by
  obtain ⟨s, rfl⟩ := exists_real_fun σ hσ
  rw [den_coe, den_coe, exp_coe_sub, ← EReal.coe_mul, Finset.sum_mul]
  congr 1
  refine Finset.sum_congr rfl (fun j _ => ?_)
  rw [← Real.exp_add]
  congr 1
  ring

/-- Rescaling a numerator from the real shift a to the real shift c:
    (∑ exp (σ j - a) * ν j) * exp (a - c) = ∑ exp (σ j - c) * ν j. -/
theorem num_rescale {J : Type*} [DecidableEq J] (σ ν : J → EReal)
    (hσ : ∀ j, ∃ r : ℝ, σ j = (r : EReal)) (hν : ∀ j, ∃ r : ℝ, ν j = (r : EReal))
    (S : Finset J) (a c : ℝ) :
    num σ ν S (a : EReal) * Ideal.exp ((a : EReal) - (c : EReal)) = num σ ν S (c : EReal) := by
  obtain ⟨s, rfl⟩ := exists_real_fun σ hσ
  obtain ⟨v, rfl⟩ := exists_real_fun ν hν
  rw [num_coe, num_coe, exp_coe_sub, ← EReal.coe_mul, Finset.sum_mul]
  congr 1
  refine Finset.sum_congr rfl (fun j _ => ?_)
  have h : Real.exp (s j - c) = Real.exp (s j - a) * Real.exp (a - c) := by
    rw [← Real.exp_add]
    congr 1
    ring
  rw [h]
  ring

/-- The denominator of a disjoint union, at one common shift, is the sum of the two. -/
theorem den_union {J : Type*} [DecidableEq J] (σ : J → EReal) (S T : Finset J)
    (hST : Disjoint S T) (M : EReal) :
    den σ S M + den σ T M = den σ (S ∪ T) M := by
  unfold den
  exact (Finset.sum_union hST).symm

/-- The numerator of a disjoint union, at one common shift, is the sum of the two. -/
theorem num_union {J : Type*} [DecidableEq J] (σ ν : J → EReal) (S T : Finset J)
    (hST : Disjoint S T) (M : EReal) :
    num σ ν S M + num σ ν T M = num σ ν (S ∪ T) M := by
  unfold num
  exact (Finset.sum_union hST).symm

/-- The denominator of the empty block is 0. -/
theorem den_empty {J : Type*} (σ : J → EReal) (M : EReal) : den σ (∅ : Finset J) M = 0 := by
  unfold den
  exact Finset.sum_empty

/-- The numerator of the empty block is 0. -/
theorem num_empty {J : Type*} (σ ν : J → EReal) (M : EReal) :
    num σ ν (∅ : Finset J) M = 0 := by
  unfold num
  exact Finset.sum_empty

/-! ### (C) Merge of two partial results -/

/-- Tree merge of denominators: each block rescaled from its own maximum to the common
    maximum, then added, is the denominator of the union at the common maximum. -/
theorem den_merge {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (top σ T) * Ideal.exp (top σ T - max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_rescale σ hσ T, den_union σ S T hST]

/-- Tree merge of numerators: each block rescaled from its own maximum to the common
    maximum, then added, is the numerator of the union at the common maximum. -/
theorem num_merge {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (top σ T) * Ideal.exp (top σ T - max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_rescale σ ν hσ hν T,
    num_union σ ν S T hST]

/-- Merge of denominators at arbitrary real shifts a, b (one per block) and c (common). -/
theorem den_merge_at {J : Type*} [DecidableEq J] (σ : J → EReal)
    (hσ : ∀ j, ∃ r : ℝ, σ j = (r : EReal)) (S T : Finset J) (hST : Disjoint S T)
    (a b c : ℝ) :
    den σ S (a : EReal) * Ideal.exp ((a : EReal) - (c : EReal))
        + den σ T (b : EReal) * Ideal.exp ((b : EReal) - (c : EReal))
      = den σ (S ∪ T) (c : EReal) := by
  rw [den_rescale σ hσ S, den_rescale σ hσ T, den_union σ S T hST]

/-- Merge of numerators at arbitrary real shifts a, b (one per block) and c (common). -/
theorem num_merge_at {J : Type*} [DecidableEq J] (σ ν : J → EReal)
    (hσ : ∀ j, ∃ r : ℝ, σ j = (r : EReal)) (hν : ∀ j, ∃ r : ℝ, ν j = (r : EReal))
    (S T : Finset J) (hST : Disjoint S T) (a b c : ℝ) :
    num σ ν S (a : EReal) * Ideal.exp ((a : EReal) - (c : EReal))
        + num σ ν T (b : EReal) * Ideal.exp ((b : EReal) - (c : EReal))
      = num σ ν (S ∪ T) (c : EReal) := by
  rw [num_rescale σ ν hσ hν S, num_rescale σ ν hσ hν T, num_union σ ν S T hST]

/-! ### (D) One step of the sequential pass -/

/-- Online step for the denominator: the running state rescaled from the old maximum to the
    new one, plus the new block taken directly at the new maximum. -/
theorem den_online {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_union σ S T hST]

/-- Online step for the numerator: the running state rescaled from the old maximum to the
    new one, plus the new block taken directly at the new maximum. -/
theorem num_online {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_union σ ν S T hST]

/-! ### (E) The first step, from the empty state (⊥, 0, 0) -/

/-- From the empty state the new maximum is the block's own maximum. -/
theorem top_first {J : Type*} (σ : J → EReal) (T : Finset J) :
    max (⊥ : EReal) (top σ T) = top σ T :=
  max_bot_left _

/-- In the extended reals ⊥ - m = ⊥, so the rescaling factor of the empty state is
    exp ⊥ = 0. -/
theorem exp_bot_sub (m : EReal) : Ideal.exp ((⊥ : EReal) - m) = 0 := by
  rw [EReal.bot_sub, Ideal.exp_bot]

/-- First online step for the denominator: the empty state contributes nothing. -/
theorem den_first {J : Type*} (σ : J → EReal) (T : Finset J) :
    (0 : EReal) * Ideal.exp ((⊥ : EReal) - max (⊥ : EReal) (top σ T))
        + den σ T (max (⊥ : EReal) (top σ T))
      = den σ T (top σ T) := by
  rw [top_first, zero_mul, zero_add]

/-- First online step for the numerator: the empty state contributes nothing. -/
theorem num_first {J : Type*} (σ ν : J → EReal) (T : Finset J) :
    (0 : EReal) * Ideal.exp ((⊥ : EReal) - max (⊥ : EReal) (top σ T))
        + num σ ν T (max (⊥ : EReal) (top σ T))
      = num σ ν T (top σ T) := by
  rw [top_first, zero_mul, zero_add]

/-! ### (F) Pulling a real scale out of a contraction -/

/-- A real factor on the left operand of a finite contraction comes out of the sum
    (over any finite index set). -/
theorem scale_out_finset {D : Type*} [DecidableEq D] (a b : D → EReal)
    (ha : ∀ d, ∃ r : ℝ, a d = (r : EReal)) (hb : ∀ d, ∃ r : ℝ, b d = (r : EReal))
    (S : Finset D) (κ : ℝ) :
    ∑ d ∈ S, (a d * (κ : EReal)) * b d = (∑ d ∈ S, a d * b d) * (κ : EReal) := by
  obtain ⟨x, rfl⟩ := exists_real_fun a ha
  obtain ⟨y, rfl⟩ := exists_real_fun b hb
  have h1 : ∀ d, ((x d : EReal) * (κ : EReal)) * (y d : EReal) = ((x d * κ * y d : ℝ) : EReal) := by
    intro d
    rw [EReal.coe_mul, EReal.coe_mul]
  have h2 : ∀ d, (x d : EReal) * (y d : EReal) = ((x d * y d : ℝ) : EReal) := by
    intro d
    rw [EReal.coe_mul]
  rw [Finset.sum_congr rfl (fun d _ => h1 d), Finset.sum_congr rfl (fun d _ => h2 d),
    ← coe_sum, ← coe_sum, ← EReal.coe_mul, Finset.sum_mul]
  congr 1
  refine Finset.sum_congr rfl (fun d _ => ?_)
  ring

/-- A real factor on the left operand of a contraction over a finite type comes out of
    the sum. -/
theorem scale_out {D : Type*} [Fintype D] [DecidableEq D] (a b : D → EReal)
    (ha : ∀ d, ∃ r : ℝ, a d = (r : EReal)) (hb : ∀ d, ∃ r : ℝ, b d = (r : EReal)) (κ : ℝ) :
    ∑ d, (a d * (κ : EReal)) * b d = (∑ d, a d * b d) * (κ : EReal) :=
  scale_out_finset a b ha hb Finset.univ κ

/-- The same with the scale given as a real-valued extended real. -/
theorem scale_out' {D : Type*} [Fintype D] [DecidableEq D] (a b : D → EReal)
    (ha : ∀ d, ∃ r : ℝ, a d = (r : EReal)) (hb : ∀ d, ∃ r : ℝ, b d = (r : EReal))
    (κ : EReal) (hκ : ∃ r : ℝ, κ = (r : EReal)) :
    ∑ d, (a d * κ) * b d = (∑ d, a d * b d) * κ := by
  obtain ⟨k, rfl⟩ := hκ
  exact scale_out a b ha hb k

/-- The same with the real factor on the right operand. -/
theorem scale_out_right {D : Type*} [Fintype D] [DecidableEq D] (a b : D → EReal)
    (ha : ∀ d, ∃ r : ℝ, a d = (r : EReal)) (hb : ∀ d, ∃ r : ℝ, b d = (r : EReal)) (κ : ℝ) :
    ∑ d, a d * (b d * (κ : EReal)) = (∑ d, a d * b d) * (κ : EReal) := by
  rw [← scale_out a b ha hb κ]
  refine Finset.sum_congr rfl (fun d _ => ?_)
  rw [← mul_assoc, mul_right_comm]

end Cert.Hand.SoftmaxMerge

/-- info: 'Cert.Hand.SoftmaxMerge.den_merge' depends on axioms: [propext, Classical.choice, Quot.sound] -/
#guard_msgs in #print axioms Cert.Hand.SoftmaxMerge.den_merge

/-- info: 'Cert.Hand.SoftmaxMerge.num_merge' depends on axioms: [propext, Classical.choice, Quot.sound] -/
#guard_msgs in #print axioms Cert.Hand.SoftmaxMerge.num_merge

/-- info: 'Cert.Hand.SoftmaxMerge.den_online' depends on axioms: [propext, Classical.choice, Quot.sound] -/
#guard_msgs in #print axioms Cert.Hand.SoftmaxMerge.den_online

/-- info: 'Cert.Hand.SoftmaxMerge.num_online' depends on axioms: [propext, Classical.choice, Quot.sound] -/
#guard_msgs in #print axioms Cert.Hand.SoftmaxMerge.num_online

/-- info: 'Cert.Hand.SoftmaxMerge.den_first' depends on axioms: [propext, Classical.choice, Quot.sound] -/
#guard_msgs in #print axioms Cert.Hand.SoftmaxMerge.den_first

/-- info: 'Cert.Hand.SoftmaxMerge.num_first' depends on axioms: [propext, Classical.choice, Quot.sound] -/
#guard_msgs in #print axioms Cert.Hand.SoftmaxMerge.num_first

/-- info: 'Cert.Hand.SoftmaxMerge.scale_out' depends on axioms: [propext, Classical.choice, Quot.sound] -/
#guard_msgs in #print axioms Cert.Hand.SoftmaxMerge.scale_out

/-- info: 'Cert.Hand.SoftmaxMerge.scale_out_right' depends on axioms: [propext, Classical.choice, Quot.sound] -/
#guard_msgs in #print axioms Cert.Hand.SoftmaxMerge.scale_out_right

/-- info: 'Cert.Hand.SoftmaxMerge.den_merge_at' depends on axioms: [propext, Classical.choice, Quot.sound] -/
#guard_msgs in #print axioms Cert.Hand.SoftmaxMerge.den_merge_at

/-- info: 'Cert.Hand.SoftmaxMerge.num_merge_at' depends on axioms: [propext, Classical.choice, Quot.sound] -/
#guard_msgs in #print axioms Cert.Hand.SoftmaxMerge.num_merge_at
-- ==== Proof.Algebra.lean ====
/-
  The two placements of the softmax division agree on real numbers.

  For a fixed query row the weights w t = exp (σ t − max σ) are positive reals when the scores are real, so their sum
  `den` is a nonzero real r. Division by a nonzero real is multiplication by 1 / r, and a real factor moves across a
  finite sum of products of reals:  (∑ t, w t · v t) · (1 / r) = ∑ t, (w t · (1 / r)) · v t.  Every quantity in sight is
  real because the inputs are: a linear layer's entries are finite sums of products of reals plus a real.
-/
import proofs.«412914_j7980049236170_3_alg».proof.Proof.Spec
import proofs.«412914_j7980049236170_3_alg».proof.Proof.LibERealSage
import proofs.«412914_j7980049236170_3_alg».proof.Proof.LibSoftmaxMerge

noncomputable section

open scoped BigOperators

namespace Cert.Attn

open Idealize.ShloMosaic Idealize.ShloMosaic.ValueIdx Cert.LibERealSage

/-! ### Every intermediate quantity is real -/

/-- A linear layer of real inputs, real weights and a real bias has real entries: each is a finite sum of products of
    reals plus a real. -/
theorem isReal_lin (x : SX.Idx → EReal) (W : SW.Idx → EReal) (β : SB.Idx → EReal)
    (hx : ∀ i, IsReal (x i)) (hW : ∀ i, IsReal (W i)) (hβ : ∀ i, IsReal (β i)) (i : SX.Idx) :
    IsReal (lin x W β i) :=
  isReal_add (isReal_sum_univ _ (fun _ => isReal_mul (hx _) (hW _))) (hβ _)

/-- A score of real queries against real keys is real: a finite sum of products of reals. -/
theorem isReal_score (q k : SX.Idx → EReal) (hq : ∀ i, IsReal (q i)) (hk : ∀ i, IsReal (k i))
    (b : Fin 8) (s t : Fin 2048) : IsReal (score q k b s t) :=
  isReal_sum_univ _ (fun _ => isReal_mul (hq _) (hk _))

/-- Folding `max` from −∞ over a nonempty finite family of reals gives a real: the fold over one element a is
    max (σ a) (−∞) = σ a, and each further element takes the max of two reals. -/
theorem isReal_fold_max {J : Type*} (σ : J → EReal) (hσ : ∀ j, IsReal (σ j)) (S : Finset J) (hS : S.Nonempty) :
    IsReal (S.fold max ⊥ σ) := by
  induction hS using Finset.Nonempty.cons_induction with
  | singleton a =>
    rw [Finset.fold_singleton, max_bot_right]
    exact hσ a
  | cons a s h hs ih =>
    rw [Finset.fold_cons]
    exact isReal_max (hσ a) ih

/-- The largest of a row of real scores is real. -/
theorem isReal_rowMax (σ : Fin 2048 → EReal) (hσ : ∀ t, IsReal (σ t)) : IsReal (rowMax σ) :=
  isReal_fold_max σ hσ Finset.univ Finset.univ_nonempty

/-- A softmax weight of a row of real scores is a POSITIVE real: the exponential of a difference of two reals. -/
theorem wt_pos_real (σ : Fin 2048 → EReal) (hσ : ∀ t, IsReal (σ t)) (t : Fin 2048) :
    ∃ a : ℝ, 0 < a ∧ wt σ t = (a : EReal) := by
  obtain ⟨s, hs⟩ := hσ t
  obtain ⟨m, hm⟩ := isReal_rowMax σ hσ
  refine ⟨Real.exp (s - m), Real.exp_pos _, ?_⟩
  show Ideal.exp (σ t - rowMax σ) = ((Real.exp (s - m) : ℝ) : EReal)
  rw [hs, hm]
  exact Cert.Hand.SoftmaxMerge.exp_coe_sub s m

/-- A softmax weight of a row of real scores is real. -/
theorem isReal_wt (σ : Fin 2048 → EReal) (hσ : ∀ t, IsReal (σ t)) (t : Fin 2048) : IsReal (wt σ t) := by
  obtain ⟨a, _, ha⟩ := wt_pos_real σ hσ t
  exact ⟨a, ha⟩

/-- The softmax denominator of a row of real scores is a POSITIVE real: a sum of positive reals over a nonempty
    index set. -/
theorem den_pos_real (σ : Fin 2048 → EReal) (hσ : ∀ t, IsReal (σ t)) :
    ∃ r : ℝ, 0 < r ∧ den σ = (r : EReal) := by
  choose a hpos ha using wt_pos_real σ hσ
  refine ⟨∑ t, a t, Finset.sum_pos (fun t _ => hpos t) Finset.univ_nonempty, ?_⟩
  unfold den
  rw [Cert.Hand.SoftmaxMerge.coe_sum]
  exact Finset.sum_congr rfl (fun t _ => ha t)

/-! ### Moving the division across the sum -/

/-- Division by a nonzero real r, after a finite sum of products of reals or inside it on the left factors:
    both are the product with 1 / r, and the real factor 1 / r moves across the sum. -/
theorem div_sum_eq_sum_div {D : Type*} [Fintype D] [DecidableEq D] (w v : D → EReal)
    (hw : ∀ d, IsReal (w d)) (hv : ∀ d, IsReal (v d)) {r : ℝ} (hr : r ≠ 0) :
    Ideal.div (∑ d, w d * v d) (r : EReal) = ∑ d, Ideal.div (w d) (r : EReal) * v d := by
  rw [Ideal.div_coe hr, ← Cert.Hand.SoftmaxMerge.scale_out w v hw hv (1 / r)]
  exact Finset.sum_congr rfl (fun d _ => by rw [Ideal.div_coe hr])

/-- One output row's attention term: with real scores and real value entries, dividing the weighted sum by the
    denominator equals summing the divided weights against the values. -/
theorem row_post_eq_pre (σ v : Fin 2048 → EReal) (hσ : ∀ t, IsReal (σ t)) (hv : ∀ t, IsReal (v t)) :
    Ideal.div (∑ t, wt σ t * v t) (den σ) = ∑ t, Ideal.div (wt σ t) (den σ) * v t := by
  obtain ⟨r, hr, hden⟩ := den_pos_real σ hσ
  rw [hden]
  exact div_sum_eq_sum_div (wt σ) v (isReal_wt σ hσ) hv (ne_of_gt hr)

/-! ### The two layers agree -/

/-- With every input entry a real number, dividing after the sum over the value rows or before it gives the same
    output entry. -/
theorem outPost_eq_outPre (x : SX.Idx → EReal) (Wq : SW.Idx → EReal) (bq : SB.Idx → EReal) (Wk : SW.Idx → EReal)
    (bk : SB.Idx → EReal) (Wv : SW.Idx → EReal) (bv : SB.Idx → EReal)
    (hx : ∀ i, IsReal (x i)) (hWq : ∀ i, IsReal (Wq i)) (hbq : ∀ i, IsReal (bq i)) (hWk : ∀ i, IsReal (Wk i))
    (hbk : ∀ i, IsReal (bk i)) (hWv : ∀ i, IsReal (Wv i)) (hbv : ∀ i, IsReal (bv i)) :
    outPost x Wq bq Wk bk Wv bv = outPre x Wq bq Wk bk Wv bv := by
  have hq := isReal_lin x Wq bq hx hWq hbq
  have hk := isReal_lin x Wk bk hx hWk hbk
  have hv := isReal_lin x Wv bv hx hWv hbv
  unfold outPost outPre attnPost attnPre
  funext i
  exact congrArg (· + x i)
    (row_post_eq_pre (score (lin x Wq bq) (lin x Wk bk) (i 0) (i 1)) (fun t => lin x Wv bv (ix3 (i 0) t (i 2)))
      (fun t => isReal_score _ _ hq hk (i 0) (i 1) t) (fun t => hv _))

end Cert.Attn

end
-- ==== Proof.Finite.lean ====
/-
  The precondition read: when the predicate "every input is finite" evaluates to true at the extended reals, every entry
  of every one of the seven inputs is a real number. The predicate is the conjunction, input by input, of "all entries
  have absolute value below +∞"; an extended real whose absolute value max x (−x) is below +∞ is neither infinity.
-/
import proofs.«412914_j7980049236170_3_alg».proof.Pre_finite_inputs
import proofs.«412914_j7980049236170_3_alg».proof.Proof.Gen.Pre_finite_inputs
import proofs.«412914_j7980049236170_3_alg».proof.Proof.LibERealSage
import Idealize.ShloMosaic.Lib.ReduceAll
import Idealize.ShloMosaic.PureOps.Ideal.Laws

noncomputable section

namespace Cert.Finite

open Idealize.ShloMosaic Cert.Pre_finite_inputs Cert.LibERealSage

/-! ### One entry -/

/-- An extended real whose absolute value max x (−x) is below +∞ is a real number: at −∞ the negation is +∞, at +∞ the
    number itself is, and in both cases the maximum is +∞, which is not below itself. -/
theorem isReal_of_abs_lt_top (x : EReal) (h : max x (-x) < ⊤) : IsReal x := by
  induction x using EReal.rec with
  | bot =>
    rw [EReal.neg_bot, max_bot_left] at h
    exact absurd h (lt_irrefl _)
  | coe r => exact ⟨r, rfl⟩
  | top =>
    rw [max_top_left] at h
    exact absurd h (lt_irrefl _)

/-- The comparison "less than" of two extended reals that evaluates to the bit 1 is the strict order. -/
theorem lt_of_cmp_olt (a b : EReal) (h : Ideal.cmp .olt a b = 1#1) : a < b := by
  by_contra hn
  simp only [Ideal.cmp] at h
  rw [decide_eq_false hn] at h
  exact absurd h (by decide)

/-- The bit pattern 0x7F800000 denotes +∞ in the 32-bit format: the exponent field is all ones and the fraction is
    zero, with the sign bit clear. -/
theorem ofBits_inf : Ideal.ofBits .f32 0x7F800000#32 = ⊤ := by
  simp [Ideal.ofBits, Ideal.ieee]

/-- One entry of the predicate: if |x| < +∞ evaluates to the bit 1 at the extended reals, x is a real number. -/
theorem isReal_of_cmp (x : Ideal .f32)
    (h : FloatOps.cmpf .olt (FloatOps.hostAbsf x) (FloatOps.ofBits (F := Ideal) .f32 0x7F800000#32) = 1#1) :
    IsReal x := by
  rw [Ideal.cmpf_def, Ideal.hostAbsf_def, Ideal.absf_def, Ideal.ofBits_def, ofBits_inf] at h
  exact isReal_of_abs_lt_top x (lt_of_cmp_olt _ _ h)

/-! ### One input -/

/-- The result of a reduction over all axes has a single index. -/
instance : Subsingleton S_.Idx := ⟨fun a b => funext fun d => d.elim0⟩

/-- One input of any shape: if the conjunction over all its entries of "|entry| < +∞" evaluates to the bit 1, every
    entry is a real number. The conjunction is 1 only if each of its terms is, and each term is the comparison of one
    entry's absolute value with +∞. -/
theorem real_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1) :
    ∀ i, IsReal (a i) := by
  intro i
  exact isReal_of_cmp (a i) (Host.reduce_andi_all _ _ hr hu j e i)

/-! ### The seven inputs -/

/-- If the finiteness predicate holds of seven arrays of extended reals, every entry of each is a real number. -/
theorem real_of_pre [Cert.Pre_finite_inputs.Facts]
    (a0 : FVec Ideal S8x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h' := congrFun h (fun d => d.elim0)
  dsimp only [fn, fn_part1, andi] at h'
  simp only [IntOp.andi_eq_one] at h'
  obtain ⟨⟨⟨⟨⟨⟨h0, h1⟩, h2⟩, h3⟩, h4⟩, h5⟩, h6⟩ := h'
  exact ⟨real_of_all a0 _ _ _ _ h0, real_of_all a1 _ _ _ _ h1, real_of_all a2 _ _ _ _ h2,
    real_of_all a3 _ _ _ _ h3, real_of_all a4 _ _ _ _ h4, real_of_all a5 _ _ _ _ h5,
    real_of_all a6 _ _ _ _ h6⟩

end Cert.Finite

end
-- ==== Proof.lean ====
/-
  Self-attention with a residual over 8 sequences of 2048 rows of width 1024: the kernel program against the reference.

  The kernel program makes the key and value rows in a first call and, in a second, projects the query rows, scores them
  against all the key rows of the batch, exponentiates the scores less their row maximum, multiplies by the value rows and
  only then divides by the row's sum of weights, adding the input row. The reference divides each weight by that sum first
  (a softmax) and then multiplies by the value rows. On the extended reals a change of float format is the identity and
  both matrix products are plain finite sums, so the two results differ only in where the division stands; under the
  precondition every input entry is a real number, hence so is every score, weight and value, the sum of weights is a
  positive real, and a nonzero real divisor moves across a finite sum of products of reals. The frames are the generated
  ones; the kernel program's value is read off its run boundary by boundary, the reference's off its generated run.
-/
import proofs.«412914_j7980049236170_3_alg».proof.Defs
import proofs.«412914_j7980049236170_3_alg».proof.Proof.Gen.Kernel
import proofs.«412914_j7980049236170_3_alg».proof.Proof.Gen.Kernel.Skeleton
import proofs.«412914_j7980049236170_3_alg».proof.Proof.Gen.Kernel.Launch
import proofs.«412914_j7980049236170_3_alg».proof.Proof.Gen.Kernel.Points
import proofs.«412914_j7980049236170_3_alg».proof.Proof.Gen.Kernel.Frame
import proofs.«412914_j7980049236170_3_alg».proof.Proof.Gen.KernelIdeal
import proofs.«412914_j7980049236170_3_alg».proof.Proof.Gen.KernelIdeal.Skeleton
import proofs.«412914_j7980049236170_3_alg».proof.Proof.Gen.KernelIdeal.Launch
import proofs.«412914_j7980049236170_3_alg».proof.Proof.Gen.KernelIdeal.Points
import proofs.«412914_j7980049236170_3_alg».proof.Proof.Gen.KernelIdeal.Frame
import proofs.«412914_j7980049236170_3_alg».proof.Proof.Gen.ReferenceIdeal
import proofs.«412914_j7980049236170_3_alg».proof.Proof.Gen.ReferenceIdeal.Run
import proofs.«412914_j7980049236170_3_alg».proof.Proof.Gen.ReferenceIdeal.Read
import proofs.«412914_j7980049236170_3_alg».proof.Proof.Gen.Pre_finite_inputs
import proofs.«412914_j7980049236170_3_alg».proof.Proof.KernelRun
import proofs.«412914_j7980049236170_3_alg».proof.Proof.KernelValue
import proofs.«412914_j7980049236170_3_alg».proof.Proof.RefValue
import proofs.«412914_j7980049236170_3_alg».proof.Proof.Algebra
import proofs.«412914_j7980049236170_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments, all of them finite, both programs end with the same result array:
    the kernel program's is the layer with the late division, the reference's the layer with the early one, and the two
    agree on real inputs. -/
theorem algebraic : Cert.algebraic_KernelIdeal_ReferenceIdeal := by
  intro m ρ m' ρ' hpre hagree
  refine ⟨fun c => Cert.Attn.outPost (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    obtain ⟨r0, r1, r2, r3, r4, r5, r6⟩ := Cert.Finite.real_of_pre _ _ _ _ _ _ _ (hpre c)
    rw [Cert.ReferenceIdeal.Read.val_main_v25_eq, Cert.ReferenceIdeal.RefValue.ref_is_outPre, a0, a1, a2, a3, a4, a5, a6]
    exact (Cert.Attn.outPost_eq_outPre _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
